-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x32 : Shape := ⟨2, ![1000000, 32]⟩
abbrev S64x128 : Shape := ⟨2, ![64, 128]⟩
abbrev S128 : Shape := ⟨1, ![128]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S1 : Shape := ⟨1, ![1]⟩
abbrev S2x1000000 : Shape := ⟨2, ![2, 1000000]⟩
abbrev S_ : Shape := ⟨0, ![]⟩
abbrev S1x1000000 : Shape := ⟨2, ![1, 1000000]⟩
abbrev S1000000 : Shape := ⟨1, ![1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_arg14 : IVec S2x1000000 32) (main_v63 : IVec S_ 1) (main_v67 : IVec S_ 1) : IVec S_ 1 :=
  let main_v68 : IVec S_ 1 := andi main_v63 main_v67
  let main_v69 : IVec S1x1000000 32 := (extractStridedSlice S1x1000000 ![0, 0] · slices_S2x1000000_S1x1000000_0_0) main_arg14
  let main_v70 : IVec S1000000 32 := shapeCast S1000000 main_v69 shapeCasts_S1x1000000_S1000000
  let main_c_26 : IVec S_ 32 := constantI S_ 32 0#32
  let main_v71 : IVec S1000000 32 := broadcastInDim S1000000 ![] bcast_S_S1000000 main_c_26
  let main_v72 : IVec S1000000 1 := cmpi .sge main_v70 main_v71
  let main_v73 : IVec S1x1000000 32 := (extractStridedSlice S1x1000000 ![0, 0] · slices_S2x1000000_S1x1000000_0_0) main_arg14
  let main_v74 : IVec S1000000 32 := shapeCast S1000000 main_v73 shapeCasts_S1x1000000_S1000000
  let main_c_27 : IVec S_ 32 := constantI S_ 32 100000#32
  let main_v75 : IVec S1000000 32 := broadcastInDim S1000000 ![] bcast_S_S1000000 main_c_27
  let main_v76 : IVec S1000000 1 := cmpi .slt main_v74 main_v75
  let main_v77 : IVec S1000000 1 := andi main_v72 main_v76
  let main_c_28 : IVec S_ 1 := constantI S_ 1 1#1
  let main_v78 : IVec S_ 1 := (fun x v => Host.reduce IntOp.andi x v reducesTo_S1000000_S_d0 h_S_) main_v77 main_c_28
  let main_v79 : IVec S_ 1 := andi main_v68 main_v78
  main_v79

def fn_part3 {F : FTy → Type} [FloatOps F] (main_arg11 : FVec F S1 .f32) (main_arg12 : FVec F S64 .f32) (main_arg13 : FVec F S64 .f32) (main_arg14 : IVec S2x1000000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S64 .f32) (main_arg8 : FVec F S64x64 .f32) (main_arg9 : FVec F S64 .f32) (main_arg10 : FVec F S1 .f32) (main_arg11 : FVec F S1 .f32) (main_arg12 : FVec F S64 .f32) (main_arg13 : FVec F S64 .f32) (main_arg14 : IVec S2x1000000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S128x64 .f32) (main_arg5 : FVec F S64 .f32) (main_arg6 : FVec F S32x64 .f32) (main_arg7 : FVec F S64 .f32) (main_arg8 : FVec F S64x64 .f32) (main_arg9 : FVec F S64 .f32) (main_arg10 : FVec F S1 .f32) (main_arg11 : FVec F S1 .f32) (main_arg12 : FVec F S64 .f32) (main_arg13 : FVec F S64 .f32) (main_arg14 : IVec S2x1000000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x64 .f32) (main_arg1 : FVec F S1000000x32 .f32) (main_arg2 : FVec F S64x128 .f32) (main_arg3 : FVec F S128 .f32) (main_arg4 : FVec F S128x64 .f32) (main_arg5 : FVec F S64 .f32) (main_arg6 : FVec F S32x64 .f32) (main_arg7 : FVec F S64 .f32) (main_arg8 : FVec F S64x64 .f32) (main_arg9 : FVec F S64 .f32) (main_arg10 : FVec F S1 .f32) (main_arg11 : FVec F S1 .f32) (main_arg12 : FVec F S64 .f32) (main_arg13 : FVec F S64 .f32) (main_arg14 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x64 : Shape := ⟨2, ![100000, 64]⟩
abbrev S1000000x32 : Shape := ⟨2, ![1000000, 32]⟩
abbrev S64x128 : Shape := ⟨2, ![64, 128]⟩
abbrev S128 : Shape := ⟨1, ![128]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S1 : Shape := ⟨1, ![1]⟩
abbrev S2x1000000 : Shape := ⟨2, ![2, 1000000]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x1 : Shape := ⟨2, ![1, 1]⟩
abbrev S1000000x64 : Shape := ⟨2, ![1000000, 64]⟩
abbrev S5000x32 : Shape := ⟨2, ![5000, 32]⟩
abbrev S5000 : Shape := ⟨1, ![5000]⟩
abbrev S5000x1 : Shape := ⟨2, ![5000, 1]⟩

abbrev nBuf : Space → Nat
  | .hbm => 49
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1000000x32, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1, .f32⟩
  | .hbm, ⟨11, _⟩ => ⟨S1, .f32⟩
  | .hbm, ⟨12, _⟩ => ⟨S64, .f32⟩
  | .hbm, ⟨13, _⟩ => ⟨S64, .f32⟩
  | .hbm, ⟨14, _⟩ => ⟨S2x1000000, .i32⟩
  | .hbm, ⟨15, _⟩ => ⟨S100000x64, .f32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1, .i32⟩
  | .hbm, ⟨29, _⟩ => ⟨S_, .i32⟩
  | .hbm, ⟨30, _⟩ => ⟨S1000000x1, .i32⟩
  | .hbm, ⟨31, _⟩ => ⟨S1000000x1, .i1⟩
  | .hbm, ⟨32, _⟩ => ⟨S1x1, .i32⟩
  | .hbm, ⟨33, _⟩ => ⟨S1000000x1, .i32⟩
  | .hbm, ⟨34, _⟩ => ⟨S1000000x1, .i1⟩
  | .hbm, ⟨35, _⟩ => ⟨S1000000x1, .i1⟩
  | .hbm, ⟨36, _⟩ => ⟨S_, .i1⟩
  | .hbm, ⟨37, _⟩ => ⟨S1000000, .i1⟩
  | .hbm, ⟨38, _⟩ => ⟨S1000000x64, .f32⟩
  | .hbm, ⟨39, _⟩ => ⟨S1000000x64, .i1⟩
  | .hbm, ⟨40, _⟩ => ⟨S_, .f32⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x32, .f32⟩
  | .local _ .vmem, ⟨9, _⟩ => ⟨S5000x32, .f32⟩
  | .local _ .vmem, ⟨10, _⟩ => ⟨S5000x64, .f32⟩
  | .local _ .vmem, ⟨11, _⟩ => ⟨S5000x64, .f32⟩
  | .local _ .vmem, ⟨12, _⟩ => ⟨S32x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S1, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1, .f32⟩
  | .local _ .vmem, ⟨24, _⟩ => ⟨S64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S5000x32_S5000x32_0_0 : ∀ a, (![0, 0] : Fin 2 → Nat) a + S5000x32.size a ≤ S5000x32.size a
  h_S5000x32 : 0 < S5000x32.numel
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  shapeCasts_S5000x64_S5000x64 : S5000x64.ShapeCasts S5000x64
  inb_S1_S1_0 : ∀ a, (![0] : Fin 1 → Nat) a + S1.size a ≤ S1.size a
  h_S1 : 0 < S1.numel
  shapeCasts_S1_S1x1 : S1.ShapeCasts S1x1
  broadcasts_S1x1_S5000x64 : S1x1.Broadcasts S5000x64
  bcast_S_S100000x64 : S_.BroadcastsInDim S100000x64 (![] : Fin 0 → Fin S100000x64.rank)
  reduces_S5000x64_S5000 : S5000x64.Reduces [1] S5000
  shapeCasts_S5000_S5000x1 : S5000.ShapeCasts S5000x1
  broadcasts_S5000x1_S5000x64 : S5000x1.Broadcasts S5000x64
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  gather_S100000x64_S1000000x1_S1000000x64_1_0_n_n_0_1_164_wf : GatherDims.WF S100000x64 S1000000x1 S1000000x64 [1] [0] [] [0] [] 1 ![1, 64]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S1000000x32.size a
  hwx1_0 : ∀ i : grid1.Coords, EltTy.bits .f32 = 32 ∨ (Rect.block (s := S1000000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S1000000x64.size a
  hwx1_7 : ∀ i : grid1.Coords, EltTy.bits .f32 = 32 ∨ (Rect.block (s := S1000000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000x32 : Shape := ⟨2, ![1000000, 32]⟩
abbrev S64x128 : Shape := ⟨2, ![64, 128]⟩
abbrev S128 : Shape := ⟨1, ![128]⟩
abbrev S128x64 : Shape := ⟨2, ![128, 64]⟩
abbrev S64 : Shape := ⟨1, ![64]⟩
abbrev S32x64 : Shape := ⟨2, ![32, 64]⟩
abbrev S64x64 : Shape := ⟨2, ![64, 64]⟩
abbrev S1 : Shape := ⟨1, ![1]⟩
abbrev S2x1000000 : Shape := ⟨2, ![2, 1000000]⟩
abbrev S100000x128 : Shape := ⟨2, ![100000, 128]⟩
abbrev S1x128 : Shape := ⟨2, ![1, 128]⟩
abbrev S_ : Shape := ⟨0, ![]⟩
abbrev S1x64 : Shape := ⟨2, ![1, 64]⟩
abbrev S1000000x64 : Shape := ⟨2, ![1000000, 64]⟩
abbrev S1x1000000 : Shape := ⟨2, ![1, 1000000]⟩
abbrev S1000000 : Shape := ⟨1, ![1000000]⟩
abbrev S1000000x1 : Shape := ⟨2, ![1000000, 1]⟩
abbrev S1x1 : Shape := ⟨2, ![1, 1]⟩
abbrev S100000 : Shape := ⟨1, ![100000]⟩
abbrev S100000x1 : Shape := ⟨2, ![100000, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x32, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1, .f32⟩
  | .hbm, ⟨11, _⟩ => ⟨S1, .f32⟩
  | .hbm, ⟨12, _⟩ => ⟨S64, .f32⟩
  | .hbm, ⟨13, _⟩ => ⟨S64, .f32⟩
  | .hbm, ⟨14, _⟩ => ⟨S2x1000000, .i32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S_, .f32⟩
  | .hbm, ⟨21, _⟩ => ⟨S100000x128, .f32⟩
  | .hbm, ⟨22, _⟩ => ⟨S100000x128, .i1⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S_, .f32⟩
  | .hbm, ⟨37, _⟩ => ⟨S1000000x64, .f32⟩
  | .hbm, ⟨38, _⟩ => ⟨S1000000x64, .i1⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S1x64, .f32⟩
  | .hbm, ⟨45, _⟩ => ⟨S1000000x64, .f32⟩
  | .hbm, ⟨46, _⟩ => ⟨S1000000x64, .f32⟩
  | .hbm, ⟨47, _⟩ => ⟨S1x1000000, .i32⟩
  | .hbm, ⟨48, _⟩ => ⟨S1000000, .i32⟩
  | .hbm, ⟨49, _⟩ => ⟨S1x1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S1000000x64, .f32⟩
  | .hbm, ⟨61, _⟩ => ⟨S1x1, .f32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S1x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S100000x1, .f32⟩
  | .hbm, ⟨84, _⟩ => ⟨S_, .f32⟩
  | .hbm, ⟨85, _⟩ => ⟨S100000x1, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_1 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_3 : Ref sig .tc := ⟨.hbm, 72, rfl⟩
abbrev main_v40 : Ref sig .tc := ⟨.hbm, 73, rfl⟩
abbrev main_v41 : Ref sig .tc := ⟨.hbm, 74, rfl⟩
abbrev main_cst_4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_5 : Ref sig .tc := ⟨.hbm, 81, rfl⟩
abbrev main_v47 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1_S1x1_1 : S1.BroadcastsInDim S1x1 (![1] : Fin 1 → Fin S1x1.rank)
  bcast_S1x1_S1000000x64_0_1 : S1x1.BroadcastsInDim S1000000x64 (![0, 1] : Fin 2 → Fin S1000000x64.rank)
  bcast_S_S100000x64 : S_.BroadcastsInDim S100000x64 (![] : Fin 0 → Fin S100000x64.rank)
  bcast_S1x1_S100000x64_0_1 : S1x1.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  dot_S1000000x32_S32x64_S1000000x64_1_0_0_1_n_n_wf : DotDims.WF S1000000x32 S32x64 S1000000x64 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KTerms.lean ====
/-
  The host operations the kernel's program applies between its three pallas_calls, as pure functions of the
  values they read: the source indices (row 0 of the edge list, a negative one wrapped once by the node count), the
  row gather with its in-range test (a row whose index is out of range is filled with the not-a-number word), the
  destination indices (row 1) and the scatter-add of the messages into a zero array.
-/
import proofs.«409998_j48696339202115_2_alg».proof.Proof.Gen.KernelIdeal

noncomputable section

namespace Cert.KernelIdeal.Value

open Cert.KernelIdeal Cert.KernelIdeal.Gen Idealize.ShloMosaic

variable {F : FTy → Type} [FloatOps F]

/-- Row 0 of the edge list: the source node of every edge. -/
def srcOf (ei : IVec S2x1000000 32) : IVec S1000000 32 :=
  shapeCast S1000000 (extractStridedSlice S1x1000000 ![0, 0] ei slices_S2x1000000_S1x1000000_0_0) shapeCasts_S1x1000000_S1000000

/-- Row 1 of the edge list: the destination node of every edge. -/
def dstOf (ei : IVec S2x1000000 32) : IVec S1000000 32 :=
  shapeCast S1000000 (extractStridedSlice S1x1000000 ![1, 0] ei slices_S2x1000000_S1x1000000_1_0) shapeCasts_S1x1000000_S1000000

/-- The gather's index column: a negative source index wrapped once by the node count. -/
def takeIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- Which edges' wrapped source index is a row number: `0 ≤ · ≤ 99999`. -/
def takeMask (idx : IVec S1000000x1 32) : IVec S1000000 1 :=
  Host.reduce IntOp.andi
    (andi (cmpi .sge idx (broadcastInDim S1000000x1 ![] bcast_S_S1000000x1 (constantI S_ 32 0#32)))
      (cmpi .sle idx (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The gathered rows, a row whose index is out of range replaced by the fill word. -/
def takeRows (x : FVec F S100000x64 .f32) (src : IVec S1000000 32) : FVec F S1000000x64 .f32 :=
  select (broadcastInDim S1000000x64 ![0] bcast_S1000000_S1000000x64_0 (takeMask (takeIdx src)))
    (Host.gather gather_S100000x64_S1000000x1_S1000000x64_1_0_n_n_0_1_164 x (takeIdx src))
    (broadcastInDim S1000000x64 ![] bcast_S_S1000000x64 (constant S_ .f32 0x7FC00000#32))

/-- The messages summed into their destination rows, from zero. -/
def scatterRows (dst : IVec S1000000 32) (u : FVec F S1000000x64 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst) u

end Cert.KernelIdeal.Value

end
-- ==== Proof.KHostA.lean ====
/- What the second pallas_call (the edge stage) is entered with: the weights and the edge features as launched, and the
   gathered node rows — the rows of the first pallas_call's result array taken at the wrapped source indices, a row whose
   index is out of range filled. Nothing between the launch and that point writes an argument. -/
import proofs.«409998_j48696339202115_2_alg».proof.Proof.Gen.KernelIdeal.Frame
import proofs.«409998_j48696339202115_2_alg».proof.Proof.KTerms
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Contents carried to a typed reference's buffer and back are the contents. -/
theorem ofBuf_toBuf {T : BufTy} (x : StableHlo.TRef sig T) (v : T.Contents (Elt F)) : x.ofBuf (x.toBuf v) = v := by
  obtain ⟨r, h, _, _⟩ := x
  subst h
  rfl

set_option maxHeartbeats 1000000 in
attribute [local irreducible] Host.gather Host.scatterAdd Host.reduce in
/-- What the row gather leaves in its result, as a function of the two values it reads. -/
theorem take_result (V : Valuation τ sig (Elt F)) :
    StableHlo.after hostOps1_1 V (Proc.devRef .tc main_v5)
      = takeRows (F := F) (V (Proc.devRef .tc main_v0)) (V (Proc.devRef .tc main_v2)) := by
  after_results_simp
  simp only [ofBuf_toBuf]
  have e0 : (StableHlo.TRef.of main_v0 : StableHlo.TRef sig ⟨S100000x64, .f32⟩).ofBuf (V (Proc.devRef .tc main_v0))
      = V (Proc.devRef .tc main_v0) := rfl
  have e2 : (StableHlo.TRef.of main_v2 : StableHlo.TRef sig ⟨S1000000, .i32⟩).ofBuf (V (Proc.devRef .tc main_v2))
      = V (Proc.devRef .tc main_v2) := rfl
  rw [e0, e2]
  rfl

/-- The two rows of the edge list are cut into four values; every other buffer keeps its contents. -/
theorem after1_keep (V : Valuation τ sig (Elt F)) (b : Ref sig .tc)
    (hb : b ∉ [main_v1, main_v2, main_v3, main_v4]) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    repeat' apply And.intro
    all_goals exact StableHlo.devRef_ne_of_ne (fun e => hb (by rw [e]; decide))))

/-- The row gather writes its own intermediate values and its result; every other buffer keeps its contents. -/
theorem after1_1_keep (V : Valuation τ sig (Elt F)) (b : Ref sig .tc)
    (hb : b ∉ [main_call0_c, main_call0_v0, main_call0_v1, main_call0_c_0, main_call0_v2, main_call0_v3,
      main_call0_v4, main_call0_v5, main_call0_c_1, main_call0_c_2, main_call0_v6, main_call0_v7, main_call0_v8,
      main_call0_v9, main_call0_v10, main_call0_v11, main_call0_c_3, main_call0_v12, main_call0_v13,
      main_call0_v14, main_call0_cst, main_call0_v15, main_v5]) :
    StableHlo.after hostOps1_1 V (Proc.devRef .tc b) = V (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (fun e => hb (by rw [e]; decide))))

/-- A buffer neither host stretch writes and the node stage does not touch is, at the edge stage's entry, as launched. -/
theorem V3_launch (c : Dev nD) (b : Ref sig .tc)
    (h11 : b ∉ [main_call0_c, main_call0_v0, main_call0_v1, main_call0_c_0, main_call0_v2, main_call0_v3,
      main_call0_v4, main_call0_v5, main_call0_c_1, main_call0_c_2, main_call0_v6, main_call0_v7, main_call0_v8,
      main_call0_v9, main_call0_v10, main_call0_v11, main_call0_c_3, main_call0_v12, main_call0_v13,
      main_call0_v14, main_call0_cst, main_call0_v15, main_v5])
    (h1 : b ∉ [main_v1, main_v2, main_v3, main_v4]) (h0 : ∀ w, Pipeline.arrRef spec0 w ≠ b) :
    V3 m ρ c b = m ((c : Thread nD τ).loc b) :=
  calc W3 m ρ c (Proc.devRef .tc b)
    _ = W2 m ρ c (Proc.devRef .tc b) := after1_1_keep _ b h11
    _ = W1 m ρ c (Proc.devRef .tc b) := after1_keep _ b h1
    _ = W0 m ρ c (Proc.devRef .tc b) := W1_of_ne m ρ c b h0
    _ = m ((c : Thread nD τ).loc b) := rfl

/-- What the first stretch leaves as the source indices: row 0 of the edge list it reads. -/
theorem src_result (V : Valuation τ sig (Elt F)) :
    StableHlo.after hostOps1 V (Proc.devRef .tc main_v2) = srcOf (V (Proc.devRef .tc main_arg14)) := by
  after_results
  rfl

/-- The gathered rows the edge stage reads: taken from what the node stage left, at the launch's edge list. -/
theorem V3_v5 (c : Dev nD) :
    V3 m ρ c main_v5 = takeRows (F := F) ((dat0 (V0 m ρ) c).arrAt 5 cfg0.N) (srcOf (m ((c : Thread nD τ).loc main_arg14))) := by
  -- the node array: untouched by the first stretch, and the node stage's sixth window
  have h0 : W2 m ρ c (Proc.devRef .tc main_v0) = (dat0 (V0 m ρ) c).arrAt 5 cfg0.N :=
    (after1_keep _ main_v0 (by decide)).trans (W1_arr m ρ c 5)
  -- the source indices: cut from the edge list, which the node stage does not touch
  have h2 : W2 m ρ c (Proc.devRef .tc main_v2) = srcOf (m ((c : Thread nD τ).loc main_arg14)) :=
    (src_result (W1 m ρ c)).trans (congrArg srcOf (W1_of_ne m ρ c main_arg14 (by decide)))
  show StableHlo.after hostOps1_1 (W2 m ρ c) (Proc.devRef .tc main_v5) = _
  rw [take_result, h0, h2]

theorem V3_arg1 (c : Dev nD) : V3 m ρ c main_arg1 = m ((c : Thread nD τ).loc main_arg1) :=
  V3_launch m ρ c main_arg1 (by decide) (by decide) (by decide)

theorem V3_arg6 (c : Dev nD) : V3 m ρ c main_arg6 = m ((c : Thread nD τ).loc main_arg6) :=
  V3_launch m ρ c main_arg6 (by decide) (by decide) (by decide)

theorem V3_arg7 (c : Dev nD) : V3 m ρ c main_arg7 = m ((c : Thread nD τ).loc main_arg7) :=
  V3_launch m ρ c main_arg7 (by decide) (by decide) (by decide)

theorem V3_arg8 (c : Dev nD) : V3 m ρ c main_arg8 = m ((c : Thread nD τ).loc main_arg8) :=
  V3_launch m ρ c main_arg8 (by decide) (by decide) (by decide)

theorem V3_arg9 (c : Dev nD) : V3 m ρ c main_arg9 = m ((c : Thread nD τ).loc main_arg9) :=
  V3_launch m ρ c main_arg9 (by decide) (by decide) (by decide)

theorem V3_arg11 (c : Dev nD) : V3 m ρ c main_arg11 = m ((c : Thread nD τ).loc main_arg11) :=
  V3_launch m ρ c main_arg11 (by decide) (by decide) (by decide)

/-- The node stage is entered with the launch memory. -/
theorem V0_eq (c : Dev nD) (b : Ref sig .tc) : V0 m ρ c b = m ((c : Thread nD τ).loc b) := rfl

end Cert.KernelIdeal.Value

end
-- ==== Proof.KHostB.lean ====
/- What the third pallas_call (the residual and normalisation) is entered with: the node features, the weight, γ and β as
   launched, and the aggregated messages — the second pallas_call's result array scatter-added by the destination indices
   of the launch's edge list; and the program's result buffer ends at what that pallas_call leaves. -/
import proofs.«409998_j48696339202115_2_alg».proof.Proof.Gen.KernelIdeal.Frame
import proofs.«409998_j48696339202115_2_alg».proof.Proof.KTerms
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The destination indices as the second stretch leaves them: row 1 of the launch's edge list. -/
theorem W4_v4 (c : Dev nD) :
    (W4 m ρ c (Proc.devRef .tc main_v4) : IVec S1000000 32) = dstOf (m ((c : Thread nD τ).loc main_arg14)) := by
  have e14 : W1 m ρ c (Proc.devRef .tc main_arg14) = m ((c : Thread nD τ).loc main_arg14) :=
    (W1_of_ne m ρ c main_arg14 (by decide)).trans rfl
  have e1 : (StableHlo.after hostOps1 (W1 m ρ c) (Proc.devRef .tc main_v4) : IVec S1000000 32)
      = dstOf (W1 m ρ c (Proc.devRef .tc main_arg14)) := by
    after_results
    rfl
  calc W4 m ρ c (Proc.devRef .tc main_v4)
    _ = W3 m ρ c (Proc.devRef .tc main_v4) := W4_of_ne m ρ c main_v4 (by decide)
    _ = W2 m ρ c (Proc.devRef .tc main_v4) := StableHlo.after_of_forall_not_mem (b := Proc.devRef .tc main_v4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = dstOf (W1 m ρ c (Proc.devRef .tc main_arg14)) := e1
    _ = dstOf (m ((c : Thread nD τ).loc main_arg14)) := by rw [e14]

/-- The aggregated messages the last stage reads. -/
theorem V5_v9 (c : Dev nD) :
    V5 m ρ c main_v9 = scatterRows (F := F) (dstOf (m ((c : Thread nD τ).loc main_arg14))) ((dat1 (V3 m ρ) c).arrAt 7 cfg1.N) := by
  have h6 : W4 m ρ c (Proc.devRef .tc main_v6) = (dat1 (V3 m ρ) c).arrAt 7 cfg1.N := W4_arr m ρ c 7
  have h9 : (StableHlo.after hostOps2 (W4 m ρ c) (Proc.devRef .tc main_v9) : FVec F S100000x64 .f32)
      = scatterRows (F := F) (W4 m ρ c (Proc.devRef .tc main_v4)) (W4 m ρ c (Proc.devRef .tc main_v6)) := by
    after_results
    rfl
  show StableHlo.after hostOps2 (W4 m ρ c) (Proc.devRef .tc main_v9) = _
  rw [h9, W4_v4 m ρ c, h6]

theorem V5_arg0 (c : Dev nD) : V5 m ρ c main_arg0 = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem V5_arg10 (c : Dev nD) : V5 m ρ c main_arg10 = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl

theorem V5_arg12 (c : Dev nD) : V5 m ρ c main_arg12 = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := W1_of_ne m ρ c main_arg12 (by decide)
    _ = m ((c : Thread nD τ).loc main_arg12) := rfl

theorem V5_arg13 (c : Dev nD) : V5 m ρ c main_arg13 = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := W1_of_ne m ρ c main_arg13 (by decide)
    _ = m ((c : Thread nD τ).loc main_arg13) := rfl

/-- The result buffer after the last segment is the array the last pallas_call leaves. -/
theorem W6_v10 (c : Dev nD) : W6 m ρ c (Proc.devRef .tc main_v10) = (dat2 (V5 m ρ) c).arrAt 5 cfg2.N :=
  W6_arr m ρ c 5

end Cert.KernelIdeal.Value

end
-- ==== Proof.PreTake.lean ====
/- The added precondition, read: every source index (row 0 of the edge list) is a node's row number, `0 ≤ · < 100000`.
   Under it no source index is wrapped and the gather's in-range test passes on every edge, so the filled gather is the
   plain gather. -/
import proofs.«409998_j48696339202115_2_alg».proof.Defs
import proofs.«409998_j48696339202115_2_alg».proof.Proof.Gen.KernelIdeal
import proofs.«409998_j48696339202115_2_alg».proof.Proof.Gen.Pre_finite_inputs
import proofs.«409998_j48696339202115_2_alg».proof.Proof.KTerms
import Idealize.ShloMosaic.Lib.ValueIdx
import Idealize.ShloMosaic.Lib.ReduceAll
import Idealize.ShloMosaic.Lib.StableHlo.Predicate

noncomputable section

namespace Cert.KernelIdeal.Value

open Cert.KernelIdeal Cert.KernelIdeal.Gen Idealize.ShloMosaic Idealize.ShloMosaic.TcCoe Idealize.SL.Sem Idealize.ShloMosaic.ValueIdx

/-- Every source index of the edge list is a node's row number. -/
def SrcInRange (ei : IVec S2x1000000 32) : Prop :=
  ∀ e : Fin 1000000, 0 ≤ (ei (ix2 (0 : Fin 2) e)).toInt ∧ (ei (ix2 (0 : Fin 2) e)).toInt < 100000

/-- A left fold by `and` over `i1` words that starts at 1 and meets only 1s comes out 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf =>
    foldl_andi_one f l _ (IntOp.andi_eq_one.2 ⟨h, hf a (List.mem_cons_self ..)⟩) (fun n hn => hf n (List.mem_cons_of_mem _ hn))

/-- A reduce by `and` from 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_one x _ _ hi (fun n _ => hx n)

/-- Row 0 of the edge list, reshaped to a vector, reads at `e` the edge list at `(0, e)`. -/
theorem row0_apply {α : Type} (ei : S2x1000000.Idx → α) (hs : S2x1000000.Slices ![0, 0] S1x1000000)
    (hc : S1x1000000.ShapeCasts S1000000) (e : Fin 1000000) :
    shapeCast S1000000 (extractStridedSlice S1x1000000 ![0, 0] ei hs) hc (ix1 e) = ei (ix2 (0 : Fin 2) e) := by
  unfold shapeCast
  have hk : Shape.reshapeEquiv hc (ix1 e) = (ix2 (0 : Fin 1) e : S1x1000000.Idx) := by
    apply Shape.reshapeEquiv_eq_of_rowMajor
    rw [Shape.rowMajor_val_two, Shape.rowMajor_val_one]
    show (0 : Nat) * 1000000 + e.val = e.val
    omega
  rw [hk]
  unfold extractStridedSlice
  refine congrArg ei (funext fun a => ?_)
  match a with
  | ⟨0, _⟩ => exact Fin.ext rfl
  | ⟨1, _⟩ => exact Fin.ext (by show 0 + e.val = e.val; omega)

theorem srcOf_apply (ei : IVec S2x1000000 32) (e : Fin 1000000) : srcOf ei (ix1 e) = ei (ix2 (0 : Fin 2) e) :=
  row0_apply ei _ _ e

instance : Subsingleton S_.Idx := ⟨fun a b => funext fun d => d.elim0⟩

/-- The last conjunct of the printed predicate, decoded: every entry of row 0 of the edge list is in `[0, 100000)`. -/
theorem srcInRange_of_part4 {F : FTy → Type} [FloatOps F] (ei : IVec S2x1000000 32) (a b : IVec S_ 1)
    (h : Cert.Pre_finite_inputs.fn_part4 (F := F) ei a b = fun _ => 1#1) : SrcInRange ei := by
  intro e
  have h0 := congrFun h ix0
  unfold Cert.Pre_finite_inputs.fn_part4 at h0
  dsimp only at h0
  have h1 := (IntOp.andi_eq_one.1 h0).2
  have h2 := Host.reduce_andi_all _ _ _ _ _ h1 (ix1 e)
  obtain ⟨h3, h4⟩ := IntOp.andi_eq_one.1 h2
  have h5 := IntOp.cmpi_sge.1 h3
  have h6 := IntOp.cmpi_slt.1 h4
  rw [row0_apply] at h5 h6
  exact ⟨h5, h6⟩

/-- The precondition gives it, on every device. -/
theorem srcInRange_of_pre (m : (ℓ : Loc nD τ sig) → Buf (Elt Ideal) ℓ) (h : Cert.Pre_KernelIdeal m) (c : Dev nD) :
    SrcInRange (m ((c.tc : Thread nD τ).loc main_arg14)) :=
  srcInRange_of_part4 (F := Ideal) _ _ _ (h c)

/-- Every source index, read at any index of the vector, is in range. -/
theorem src_range (ei : IVec S2x1000000 32) (h : SrcInRange ei) (k : S1000000.Idx) :
    0 ≤ (srcOf ei k).toInt ∧ (srcOf ei k).toInt < 100000 := by
  obtain ⟨e, rfl⟩ : ∃ e : Fin 1000000, k = ix1 e := ⟨k 0, eq_ix1 k⟩
  rw [srcOf_apply]; exact h e

/-- A word in `[0, 100000)` is not wrapped, and passes the test `0 ≤ · ≤ 99999`. -/
theorem mask_elem (w : BitVec 32) (h0 : 0 ≤ w.toInt) (h1 : w.toInt < 100000) :
    IntOp.andi (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have hz : (0#32 : BitVec 32).toInt = 0 := by decide
  have hn : ¬ IntOp.cmpi .slt w 0#32 = 1#1 := fun hc => by
    have := IntOp.cmpi_slt.1 hc; rw [hz] at this; omega
  have hs : Scalar.select (IntOp.cmpi .slt w 0#32) (IntOp.addi w 100000#32) w = w := if_neg hn
  rw [hs]
  refine IntOp.andi_eq_one.2 ⟨IntOp.cmpi_sge.2 (by rw [hz]; exact h0), IntOp.cmpi_sle.2 ?_⟩
  have hh : (99999#32 : BitVec 32).toInt = 99999 := by decide
  rw [hh]; omega

/-- With every source index in range the gather's in-range test passes on every edge. -/
theorem takeMask_one (ei : IVec S2x1000000 32) (h : SrcInRange ei) (k : S1000000.Idx) :
    takeMask (takeIdx (srcOf ei)) k = 1#1 := by
  unfold takeMask
  refine reduce_andi_of_all _ _ _ _ _ rfl (fun i => ?_)
  exact mask_elem _ (src_range ei h _).1 (src_range ei h _).2

/-- With every source index in range, the filled gather is the plain gather at the (unwrapped) indices. -/
theorem takeRows_eq {F : FTy → Type} [FloatOps F] (x : FVec F S100000x64 .f32) (ei : IVec S2x1000000 32) (h : SrcInRange ei) :
    takeRows x (srcOf ei) = Host.gather gather_S100000x64_S1000000x1_S1000000x64_1_0_n_n_0_1_164 x (takeIdx (srcOf ei)) := by
  funext i
  unfold takeRows
  rw [select_apply]
  have hm : broadcastInDim S1000000x64 ![0] bcast_S1000000_S1000000x64_0 (takeMask (takeIdx (srcOf ei))) i = 1#1 :=
    takeMask_one ei h _
  rw [hm, select_one]

end Cert.KernelIdeal.Value

end
-- ==== Proof.Spec.lean ====
/-
  The mathematics both programs compute, stated once over the extended reals, index by index, independent of either
  program's text.

  A node feature matrix x : [N, D] (N = 100000 nodes, D = 64) and an edge feature matrix ea : [E, 32] (E = 1000000 edges):
  * every node row goes through a two-layer perceptron  (leaky (x·W1 + b1))·W2 + b2  (hidden width 128);
  * every edge row goes through another one (hidden width 64); the edge's message is the transformed SOURCE node's
    row times the transformed edge row times a scale;
  * the messages are summed into their DESTINATION node's row; the node's row plus that sum times a weight is
    normalised along the feature axis (mean, variance, reciprocal square root, scale and shift).
  A row of either perceptron or of the normalisation depends on that row of its inputs only, which is why a program
  that works through the rows in blocks computes the same array as one that works on whole arrays.
-/
import Idealize.ShloMosaic.PureOps.Ideal
import Idealize.ShloMosaic.Lib.ValueIdx

noncomputable section

namespace Cert.GraphConv

open Idealize.ShloMosaic Idealize.ShloMosaic.ValueIdx

/-- The leaky rectifier's slope, the f32 nearest to 1/10, as both programs carry it. -/
abbrev slope : EReal := Ideal.ofBits .f32 0x3DCCCCCD#32

/-- The leaky rectifier as both programs spell it: `v` where `v ≥ 0`, else `slope · v`. -/
def leaky (v : EReal) : EReal :=
  Scalar.select (Ideal.cmp .oge v (Ideal.ofBits .f32 0x00000000#32)) v (slope * v)

/-- One row through a two-layer perceptron, at output column `j`:
    `(∑ₖ leaky ((∑ₗ x l · W1 l k) + b1 k) · W2 k j) + b2 j`. -/
def mlp {din dh dout : Nat} (x : Fin din → EReal) (W1 : Fin din → Fin dh → EReal) (b1 : Fin dh → EReal)
    (W2 : Fin dh → Fin dout → EReal) (b2 : Fin dout → EReal) (j : Fin dout) : EReal :=
  (∑ k : Fin dh, leaky ((∑ l : Fin din, x l * W1 l k) + b1 k) * W2 k j) + b2 j

/-- The perceptron applied to every row of an [n, din] array. -/
def mlpRows {n din dh dout : Nat} (x : (⟨2, ![n, din]⟩ : Shape).Idx → EReal) (W1 : (⟨2, ![din, dh]⟩ : Shape).Idx → EReal)
    (b1 : (⟨1, ![dh]⟩ : Shape).Idx → EReal) (W2 : (⟨2, ![dh, dout]⟩ : Shape).Idx → EReal) (b2 : (⟨1, ![dout]⟩ : Shape).Idx → EReal) :
    (⟨2, ![n, dout]⟩ : Shape).Idx → EReal :=
  fun i => mlp (fun l => x (ix2 (i 0) l)) (fun l k => W1 (ix2 l k)) (fun k => b1 (ix1 k)) (fun k j => W2 (ix2 k j))
    (fun j => b2 (ix1 j)) (i 1)

/-- An edge's message: the gathered source row times the transformed edge row, times the scale. -/
def edgeRows {n din dh dout : Nat} (ea : (⟨2, ![n, din]⟩ : Shape).Idx → EReal) (xg : (⟨2, ![n, dout]⟩ : Shape).Idx → EReal)
    (W1 : (⟨2, ![din, dh]⟩ : Shape).Idx → EReal) (b1 : (⟨1, ![dh]⟩ : Shape).Idx → EReal)
    (W2 : (⟨2, ![dh, dout]⟩ : Shape).Idx → EReal) (b2 : (⟨1, ![dout]⟩ : Shape).Idx → EReal)
    (dp : (⟨1, ![1]⟩ : Shape).Idx → EReal) : (⟨2, ![n, dout]⟩ : Shape).Idx → EReal :=
  fun i => (xg i * mlpRows ea W1 b1 W2 b2 i) * dp (ix1 0)

/-- The divisor of the two means (64, the feature width) and the variance's offset, as both programs carry them. -/
abbrev width : EReal := Ideal.ofBits .f32 0x42800000#32
abbrev eps : EReal := Ideal.ofBits .f32 0x3727C5AC#32

/-- One row normalised: with `μ = (∑ o) / 64` and `σ² = (∑ (o − μ)²) / 64`,
    `((o j − μ) · rsqrt (σ² + ε)) · γ j + β j`. -/
def normRow {d : Nat} (o : Fin d → EReal) (γ β : Fin d → EReal) (j : Fin d) : EReal :=
  ((o j - Ideal.div (∑ a : Fin d, o a) width)
      * Ideal.rsqrt (Ideal.div (∑ a : Fin d, (o a - Ideal.div (∑ a : Fin d, o a) width) * (o a - Ideal.div (∑ a : Fin d, o a) width)) width + eps))
    * γ j + β j

/-- Residual and normalisation of every row: `o = x + agg · w`, then `normRow`. -/
def normRows {n d : Nat} (x agg : (⟨2, ![n, d]⟩ : Shape).Idx → EReal) (w : (⟨1, ![1]⟩ : Shape).Idx → EReal)
    (γ β : (⟨1, ![d]⟩ : Shape).Idx → EReal) : (⟨2, ![n, d]⟩ : Shape).Idx → EReal :=
  fun i => normRow (fun a => x (ix2 (i 0) a) + agg (ix2 (i 0) a) * w (ix1 0)) (fun a => γ (ix1 a)) (fun a => β (ix1 a)) (i 1)

end Cert.GraphConv

end
-- ==== Proof.Region0.lean ====
/- Region 0 (the node perceptron, 20 blocks of 5000 rows): the array the region leaves is the perceptron of every row. -/
import proofs.«409998_j48696339202115_2_alg».proof.Proof.Gen.KernelIdeal.Frame
import proofs.«409998_j48696339202115_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat Cfg Window)

namespace R0

/-! ## The two products' operand indices -/

/-- The first product's dimension numbers ([5000,64] · [64,128]) and the second's ([5000,128] · [128,64]): each contracts the
    left operand's columns with the right operand's rows. -/
abbrev DA := dot_S5000x64_S64x128_S5000x128_1_0_0_1_n_n
abbrev DB := dot_S5000x128_S128x64_S5000x64_1_0_0_1_n_n

/-- At output index `j` and contraction position `k` the left operand is read at `(j 0, k)` and the right at `(k, j 1)`. -/
theorem DA_lhs0 (j : S5000x128.Idx) (k : DA.contr.Idx) : (DA.lhsIdx j k 0 : ℕ) = j 0 := by
  simp [DotDims.lhsIdx, DA, dot_S5000x64_S64x128_S5000x128_1_0_0_1_n_n]; rfl
theorem DA_lhs1 (j : S5000x128.Idx) (k : DA.contr.Idx) : (DA.lhsIdx j k 1 : ℕ) = k ⟨0, by decide⟩ :=
  DA.lhsIdx_val_of_single (cl := 1) rfl j k
theorem DA_rhs0 (j : S5000x128.Idx) (k : DA.contr.Idx) : (DA.rhsIdx j k 0 : ℕ) = k ⟨0, by decide⟩ :=
  DA.rhsIdx_val_of_single (cr := 0) rfl j k
theorem DA_rhs1 (j : S5000x128.Idx) (k : DA.contr.Idx) : (DA.rhsIdx j k 1 : ℕ) = j 1 := by
  simp [DotDims.rhsIdx, DA, dot_S5000x64_S64x128_S5000x128_1_0_0_1_n_n]; rfl

theorem DB_lhs0 (j : S5000x64.Idx) (k : DB.contr.Idx) : (DB.lhsIdx j k 0 : ℕ) = j 0 := by
  simp [DotDims.lhsIdx, DB, dot_S5000x128_S128x64_S5000x64_1_0_0_1_n_n]; rfl
theorem DB_lhs1 (j : S5000x64.Idx) (k : DB.contr.Idx) : (DB.lhsIdx j k 1 : ℕ) = k ⟨0, by decide⟩ :=
  DB.lhsIdx_val_of_single (cl := 1) rfl j k
theorem DB_rhs0 (j : S5000x64.Idx) (k : DB.contr.Idx) : (DB.rhsIdx j k 0 : ℕ) = k ⟨0, by decide⟩ :=
  DB.rhsIdx_val_of_single (cr := 0) rfl j k
theorem DB_rhs1 (j : S5000x64.Idx) (k : DB.contr.Idx) : (DB.rhsIdx j k 1 : ℕ) = j 1 := by
  simp [DotDims.rhsIdx, DB, dot_S5000x128_S128x64_S5000x64_1_0_0_1_n_n]; rfl

/-- Two rank-2 indices with the same coordinates are equal. -/
theorem idx2_ext {n0 n1 : Nat} {x y : (⟨2, ![n0, n1]⟩ : Shape).Idx} (h0 : (x 0 : ℕ) = y 0) (h1 : (x 1 : ℕ) = y 1) : x = y :=
  funext fun a => Fin.ext (match a with | ⟨0, _⟩ => h0 | ⟨1, _⟩ => h1)

/-- The first product into zero, at row `r` and hidden unit `k`: the sum over the 64 input features. -/
theorem prodA_apply (A : FVec Ideal S5000x64 .bf16) (B : FVec Ideal S64x128 .bf16) (r : Fin 5000) (k : Fin 128) :
    FloatOps.matmul DA none A B (constant S5000x128 .f32 0x00000000#32) (ix2 r k) = ∑ l : Fin 64, A (ix2 r l) * B (ix2 l k) := by
  rw [Ideal.matmul_constant_zero_apply, ← Equiv.sum_comp (contrEquiv1 DA 64 rfl rfl).symm]
  refine Finset.sum_congr rfl fun l _ => ?_
  congr 2
  · exact idx2_ext (DA_lhs0 _ _) ((DA_lhs1 _ _).trans (contrEquiv1_symm_val DA 64 rfl rfl l))
  · exact idx2_ext ((DA_rhs0 _ _).trans (contrEquiv1_symm_val DA 64 rfl rfl l)) (DA_rhs1 _ _)

/-- The second product into zero, at row `r` and output column `j`: the sum over the 128 hidden units. -/
theorem prodB_apply (A : FVec Ideal S5000x128 .bf16) (B : FVec Ideal S128x64 .bf16) (r : Fin 5000) (j : Fin 64) :
    FloatOps.matmul DB none A B (constant S5000x64 .f32 0x00000000#32) (ix2 r j) = ∑ k : Fin 128, A (ix2 r k) * B (ix2 k j) := by
  rw [Ideal.matmul_constant_zero_apply, ← Equiv.sum_comp (contrEquiv1 DB 128 rfl rfl).symm]
  refine Finset.sum_congr rfl fun l _ => ?_
  congr 2
  · exact idx2_ext (DB_lhs0 _ _) ((DB_lhs1 _ _).trans (contrEquiv1_symm_val DB 128 rfl rfl l))
  · exact idx2_ext ((DB_rhs0 _ _).trans (contrEquiv1_symm_val DB 128 rfl rfl l)) (DB_rhs1 _ _)

/-- A bias vector laid along every row: at `(r, k)` it reads entry `k`. -/
theorem bias128_apply (b : FVec Ideal S128 .f32) (r : Fin 5000) (k : Fin 128) :
    broadcastTo S5000x128 (shapeCast S1x128 b shapeCasts_S128_S1x128) broadcasts_S1x128_S5000x128 (ix2 r k) = b (ix1 k) := by
  rw [broadcastTo_apply _ _ _ (ix2 (0 : Fin 1) k) (by intro a; match a with | ⟨0, _⟩ => rfl | ⟨1, _⟩ => rfl)]
  exact shapeCast_apply _ _ _ (ix1 k) (by rw [Shape.rowMajor_val_one, Shape.rowMajor_val_two]; simp)
theorem bias64_apply (b : FVec Ideal S64 .f32) (r : Fin 5000) (j : Fin 64) :
    broadcastTo S5000x64 (shapeCast S1x64 b shapeCasts_S64_S1x64) broadcasts_S1x64_S5000x64 (ix2 r j) = b (ix1 j) := by
  rw [broadcastTo_apply _ _ _ (ix2 (0 : Fin 1) j) (by intro a; match a with | ⟨0, _⟩ => rfl | ⟨1, _⟩ => rfl)]
  exact shapeCast_apply _ _ _ (ix1 j) (by rw [Shape.rowMajor_val_one, Shape.rowMajor_val_two]; simp)

/-- The body's arithmetic at row `r` of the block and output column `j`: the perceptron of that row. -/
theorem pay_apply (x0 : Vec Ideal S5000x64 .f32) (x1 : Vec Ideal S64x128 .f32) (x2 : Vec Ideal S128 .f32)
    (x3 : Vec Ideal S128x64 .f32) (x4 : Vec Ideal S64 .f32) (r : Fin 5000) (j : Fin 64) :
    k0_pay1 x0 x1 x2 x3 x4 (ix2 r j)
      = Cert.GraphConv.mlp (fun l => x0 (ix2 r l)) (fun l k => x1 (ix2 l k)) (fun k => x2 (ix1 k))
          (fun k j => x3 (ix2 k j)) (fun j => x4 (ix1 j)) j := by
  unfold k0_pay1 Cert.GraphConv.mlp
  simp only [addf_apply, prodB_apply, bias64_apply, truncf_apply, select_apply, cmpf_apply, broadcast_apply, mulf_apply,
    prodA_apply, bias128_apply]
  rfl

/-- The perceptron of every row, at an index: the perceptron of that index's row, at its column. -/
theorem mlpRows_apply {n din dh dout : Nat} (x : (⟨2, ![n, din]⟩ : Shape).Idx → EReal) (W1 : (⟨2, ![din, dh]⟩ : Shape).Idx → EReal)
    (b1 : (⟨1, ![dh]⟩ : Shape).Idx → EReal) (W2 : (⟨2, ![dh, dout]⟩ : Shape).Idx → EReal) (b2 : (⟨1, ![dout]⟩ : Shape).Idx → EReal)
    (i : (⟨2, ![n, dout]⟩ : Shape).Idx) :
    Cert.GraphConv.mlpRows x W1 b1 W2 b2 i
      = Cert.GraphConv.mlp (fun l => x (ix2 (i 0) l)) (fun l k => W1 (ix2 l k)) (fun k => b1 (ix1 k)) (fun k j => W2 (ix2 k j))
          (fun j => b2 (ix1 j)) (i 1) := rfl

theorem hz2 : (![0, 0] : Fin 2 → Nat) = fun _ => 0 := funext fun a => by fin_cases a <;> rfl
theorem hz1 : (![0] : Fin 1 → Nat) = fun _ => 0 := funext fun a => by fin_cases a; rfl

/-- The index maps at every point of the grid: the row-blocked windows (the input rows, the output rows) are at
    block `t` of the rows and block 0 of the columns; the weights' and biases' windows are at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row `p` of the input block at point `t` is row `5000 t + p` of the input array. -/
theorem blk0_apply (p : Fin 5000) (l : Fin 64) (i : S100000x64.Idx) (h0 : (i 0).val = t.val * 5000 + p.val) (h1 : (i 1).val = l.val) :
    iblk0 V c 0 t (ix2 p l) = V c main_arg0 i := by
  unfold iblk0
  show V c main_arg0 (((cfg0.win 0).blk t).view.emb (ix2 p l)) = _
  congr 1
  obtain ⟨e0, e1, -⟩ := idx_facts t
  funext a; apply Fin.ext
  match a with
  | ⟨0, _⟩ => show win0_0.index t (0 : Fin 2) * 5000 + 1 * p.val = (i 0).val; omega
  | ⟨1, _⟩ => show win0_0.index t (1 : Fin 2) * 64 + 1 * l.val = (i 1).val; omega

/-- The first layer's weights' block is the whole array at every point. -/
theorem blk1_apply (l : Fin 64) (k : Fin 128) : iblk0 V c 1 t (ix2 l k) = V c main_arg2 (ix2 l k) := by
  unfold iblk0
  show V c main_arg2 (((cfg0.win 1).blk t).view.emb (ix2 l k)) = _
  congr 1
  obtain ⟨-, -, e0, e1, -⟩ := idx_facts t
  funext a; apply Fin.ext
  match a with
  | ⟨0, _⟩ => show win0_1.index t (0 : Fin 2) * 64 + 1 * l.val = l.val; omega
  | ⟨1, _⟩ => show win0_1.index t (1 : Fin 2) * 128 + 1 * k.val = k.val; omega

/-- The first layer's bias's block is the whole array at every point. -/
theorem blk2_apply (k : Fin 128) : iblk0 V c 2 t (ix1 k) = V c main_arg3 (ix1 k) := by
  unfold iblk0
  show V c main_arg3 (((cfg0.win 2).blk t).view.emb (ix1 k)) = _
  congr 1
  obtain ⟨-, -, -, -, e0, -⟩ := idx_facts t
  funext a; apply Fin.ext
  match a with
  | ⟨0, _⟩ => show win0_2.index t (0 : Fin 1) * 128 + 1 * k.val = k.val; omega

/-- The second layer's weights' block is the whole array at every point. -/
theorem blk3_apply (k : Fin 128) (j : Fin 64) : iblk0 V c 3 t (ix2 k j) = V c main_arg4 (ix2 k j) := by
  unfold iblk0
  show V c main_arg4 (((cfg0.win 3).blk t).view.emb (ix2 k j)) = _
  congr 1
  obtain ⟨-, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 64 + 1 * j.val = j.val; omega

/-- The second layer's bias's block is the whole array at every point. -/
theorem blk4_apply (j : Fin 64) : iblk0 V c 4 t (ix1 j) = V c main_arg5 (ix1 j) := by
  unfold iblk0
  show V c main_arg5 (((cfg0.win 4).blk t).view.emb (ix1 j)) = _
  congr 1
  obtain ⟨-, -, -, -, -, -, -, e0, -⟩ := idx_facts t
  funext a; apply Fin.ext
  match a with
  | ⟨0, _⟩ => show win0_4.index t (0 : Fin 1) * 64 + 1 * j.val = j.val; omega

end Blocks

/-- The perceptron of a row depends on its arguments pointwise. -/
theorem mlp_congr {din dh dout : Nat} {x x' : Fin din → EReal} {W1 W1' : Fin din → Fin dh → EReal} {b1 b1' : Fin dh → EReal}
    {W2 W2' : Fin dh → Fin dout → EReal} {b2 b2' : Fin dout → EReal} {j j' : Fin dout}
    (hx : ∀ l, x l = x' l) (hW1 : ∀ l k, W1 l k = W1' l k) (hb1 : ∀ k, b1 k = b1' k) (hW2 : ∀ k j, W2 k j = W2' k j)
    (hb2 : ∀ j, b2 j = b2' j) (hj : j = j') :
    Cert.GraphConv.mlp x W1 b1 W2 b2 j = Cert.GraphConv.mlp x' W1' b1' W2' b2' j' := by
  obtain rfl : x = x' := funext hx
  obtain rfl : W1 = W1' := funext fun l => funext (hW1 l)
  obtain rfl : b1 = b1' := funext hb1
  obtain rfl : W2 = W2' := funext fun k => funext (hW2 k)
  obtain rfl : b2 = b2' := funext hb2
  rw [hj]

/-- What point `t` writes back is block `t` of the perceptron of every row of the arrays the region is entered with. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.GraphConv.mlpRows (n := 100000) (din := 64) (dh := 128) (dout := 64)
          (V c main_arg0) (V c main_arg2) (V c main_arg3) (V c main_arg4) (V c main_arg5)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x128) hz2, View.ld_unit_zero (S := S128x64) hz2,
    View.ld_unit_zero (S := S128) hz1, View.ld_unit_zero (S := S64) hz1]
  funext j
  obtain ⟨p, q, rfl⟩ : ∃ (p : Fin 5000) (q : Fin 64), j = ix2 p q := ⟨j 0, j 1, eq_ix2 j⟩
  refine (pay_apply _ _ _ _ _ p q).trans ?_
  obtain ⟨-, -, -, -, -, -, -, -, e0, e1⟩ := idx_facts t
  have hE0 : ((((cfg0.win 5).blk t).view.emb (ix2 p q)) 0).val = t.val * 5000 + p.val := by
    show win0_5.index t (0 : Fin 2) * 5000 + 1 * p.val = _; omega
  have hE1 : q = (((cfg0.win 5).blk t).view.emb (ix2 p q)) 1 :=
    Fin.ext (by show q.val = win0_5.index t (1 : Fin 2) * 64 + 1 * q.val; omega)
  show _ = Cert.GraphConv.mlpRows (n := 100000) (din := 64) (dh := 128) (dout := 64) (V c main_arg0) (V c main_arg2) (V c main_arg3)
    (V c main_arg4) (V c main_arg5) (((cfg0.win 5).blk t).view.emb (ix2 p q))
  rw [mlpRows_apply]
  exact mlp_congr (fun l => blk0_apply V c t p l (ix2 ((((cfg0.win 5).blk t).view.emb (ix2 p q)) 0) l) hE0 rfl) (blk1_apply V c t)
    (blk2_apply V c t) (blk3_apply V c t) (blk4_apply V c t) hE1

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v0).slice (win0_5.rect t)).set ↔ _
  rw [View.set_slice_whole, Rect.mem_set_unit]
  exact Iff.rfl

/-- Every row of the array is in the block of the point numbered by its quotient by the block height. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 5000 < cfg0.N := by show _ < 20; omega
  refine ⟨⟨(i 0).val / 5000, ht⟩, flush0_5 _, ?_⟩
  rw [mem_blk]
  obtain ⟨-, -, -, -, -, -, -, -, e0, e1⟩ := idx_facts ⟨(i 0).val / 5000, ht⟩
  have e0' : win0_5.index ⟨(i 0).val / 5000, ht⟩ (0 : Fin 2) = (i 0).val / 5000 := e0
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    omega

end R0

/-- The node array after region 0, for any contents `V` the region is entered with. -/
theorem region0 (V : (c : Dev nD) → (b : Ref sig .tc) → Buf (Elt Ideal) ((c : Thread nD τ).loc b)) (c : Dev nD) :
    (dat0 (F := Ideal) V c).arrAt 5 cfg0.N
      = Cert.GraphConv.mlpRows (n := 100000) (din := 64) (dh := 128) (dout := 64)
          (V c main_arg0) (V c main_arg2) (V c main_arg3) (V c main_arg4) (V c main_arg5) :=
  (dat0 (F := Ideal) V c).arrAt_eq_of_cover 5 _ (fun t _ => R0.flushed_eq V c t) R0.covered

end Cert.KernelIdeal.Value

end
-- ==== Proof.Region1.lean ====
/- Region 1 (the edge perceptron fused with the message product, 200 blocks of 5000 rows). -/
import proofs.«409998_j48696339202115_2_alg».proof.Proof.Gen.KernelIdeal.Frame
import proofs.«409998_j48696339202115_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The first product, entry by entry: row `a` of the left factor against column `b` of the right one. -/
theorem edge_matmul_in_apply (A : FVec Ideal S5000x32 .bf16) (B : FVec Ideal S32x64 .bf16) (a : Fin 5000) (b : Fin 64) :
    matmul dot_S5000x32_S32x64_S5000x64_1_0_0_1_n_n none A B (constant S5000x64 .f32 0x00000000#32) (ix2 a b)
      = ∑ c : Fin 32, A (ix2 a c) * B (ix2 c b) := by
  show FloatOps.matmul _ none A B (constant S5000x64 .f32 0x00000000#32) (ix2 a b) = _
  rw [Ideal.matmul_constant_zero_apply,
    ← Equiv.sum_comp (contrEquiv1 dot_S5000x32_S32x64_S5000x64_1_0_0_1_n_n 32 rfl rfl).symm]
  refine Finset.sum_congr rfl fun c _ => ?_
  have c2 := contrEquiv1_symm_val dot_S5000x32_S32x64_S5000x64_1_0_0_1_n_n 32 rfl rfl c
  have l2 : dot_S5000x32_S32x64_S5000x64_1_0_0_1_n_n.lhsIdx (ix2 a b) ((contrEquiv1 _ 32 rfl rfl).symm c) = ix2 a c := by
    funext ax; apply Fin.ext
    match ax with
    | ⟨0, _⟩ => simp [DotDims.lhsIdx, dot_S5000x32_S32x64_S5000x64_1_0_0_1_n_n]; rfl
    | ⟨1, _⟩ => simp [DotDims.lhsIdx, dot_S5000x32_S32x64_S5000x64_1_0_0_1_n_n]; exact c2
  have r2 : dot_S5000x32_S32x64_S5000x64_1_0_0_1_n_n.rhsIdx (ix2 a b) ((contrEquiv1 _ 32 rfl rfl).symm c) = ix2 c b := by
    funext ax; apply Fin.ext
    match ax with
    | ⟨0, _⟩ => simp [DotDims.rhsIdx, dot_S5000x32_S32x64_S5000x64_1_0_0_1_n_n]; exact c2
    | ⟨1, _⟩ => simp [DotDims.rhsIdx, dot_S5000x32_S32x64_S5000x64_1_0_0_1_n_n]; rfl
  rw [l2, r2]

/-- The second product, entry by entry. -/
theorem edge_matmul_hid_apply (A : FVec Ideal S5000x64 .bf16) (B : FVec Ideal S64x64 .bf16) (a : Fin 5000) (b : Fin 64) :
    matmul dot_S5000x64_S64x64_S5000x64_1_0_0_1_n_n none A B (constant S5000x64 .f32 0x00000000#32) (ix2 a b)
      = ∑ c : Fin 64, A (ix2 a c) * B (ix2 c b) := by
  show FloatOps.matmul _ none A B (constant S5000x64 .f32 0x00000000#32) (ix2 a b) = _
  rw [Ideal.matmul_constant_zero_apply,
    ← Equiv.sum_comp (contrEquiv1 dot_S5000x64_S64x64_S5000x64_1_0_0_1_n_n 64 rfl rfl).symm]
  refine Finset.sum_congr rfl fun c _ => ?_
  have c2 := contrEquiv1_symm_val dot_S5000x64_S64x64_S5000x64_1_0_0_1_n_n 64 rfl rfl c
  have l2 : dot_S5000x64_S64x64_S5000x64_1_0_0_1_n_n.lhsIdx (ix2 a b) ((contrEquiv1 _ 64 rfl rfl).symm c) = ix2 a c := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact c2
  have r2 : dot_S5000x64_S64x64_S5000x64_1_0_0_1_n_n.rhsIdx (ix2 a b) ((contrEquiv1 _ 64 rfl rfl).symm c) = ix2 c b := by
    funext ax; apply Fin.ext
    match ax with
    | ⟨0, _⟩ => simp [DotDims.rhsIdx, dot_S5000x64_S64x64_S5000x64_1_0_0_1_n_n]; exact c2
    | ⟨1, _⟩ => simp [DotDims.rhsIdx, dot_S5000x64_S64x64_S5000x64_1_0_0_1_n_n]; rfl
  rw [l2, r2]

/-- A bias row spread over the block's rows: entry `(a, b)` is the row's entry `b`. -/
theorem edge_bias_apply {α : Type} (v : S64.Idx → α) (a : Fin 5000) (b : Fin 64) :
    broadcastTo S5000x64 (shapeCast S1x64 v shapeCasts_S64_S1x64) broadcasts_S1x64_S5000x64 (ix2 a b) = v (ix1 b) := by
  rw [broadcastTo_apply _ _ (ix2 a b) (ix2 (0 : Fin 1) b) (fun ax => by
    match ax with
    | ⟨0, _⟩ => rfl
    | ⟨1, _⟩ => rfl)]
  exact shapeCast_apply _ _ _ _ (by rw [Shape.rowMajor_val_one, Shape.rowMajor_val_two]; show b.val = (0 : Nat) * 64 + b.val; omega)

/-- The one-element scale spread over the block: every entry is that element. -/
theorem edge_scale_apply {α : Type} (v : S1.Idx → α) (a : Fin 5000) (b : Fin 64) :
    broadcastTo S5000x64 (shapeCast S1x1 v shapeCasts_S1_S1x1) broadcasts_S1x1_S5000x64 (ix2 a b) = v (ix1 0) := by
  rw [broadcastTo_apply _ _ (ix2 a b) (ix2 (0 : Fin 1) (0 : Fin 1)) (fun ax => by
    match ax with
    | ⟨0, _⟩ => rfl
    | ⟨1, _⟩ => rfl)]
  exact shapeCast_apply _ _ _ _ (by rw [Shape.rowMajor_val_one, Shape.rowMajor_val_two]; rfl)

/-- The body's arithmetic at row `r`, column `j` of the block: the gathered row's entry times the perceptron of the
    edge row, times the scale. -/
theorem edge_pay_apply (x0 : Vec Ideal S5000x32 .f32) (w1 : Vec Ideal S32x64 .f32) (b1 : Vec Ideal S64 .f32)
    (w2 : Vec Ideal S64x64 .f32) (b2 : Vec Ideal S64 .f32) (xg : Vec Ideal S5000x64 .f32) (dp : Vec Ideal S1 .f32)
    (r : Fin 5000) (j : Fin 64) :
    k1_pay1 x0 w1 b1 w2 b2 xg dp (ix2 r j)
      = (xg (ix2 r j) * Cert.GraphConv.mlp (fun l => x0 (ix2 r l)) (fun l k => w1 (ix2 l k)) (fun k => b1 (ix1 k))
          (fun k j => w2 (ix2 k j)) (fun j => b2 (ix1 j)) j) * dp (ix1 0) := by
  unfold k1_pay1
  simp only [mulf_apply, addf_apply, shapeCast_self, edge_bias_apply, edge_scale_apply, edge_matmul_hid_apply, edge_matmul_in_apply,
    truncf_apply, select_apply, cmpf_apply, broadcast_apply]
  rfl

theorem edge_zeros2 : (![0, 0] : Fin 2 → Nat) = fun _ => 0 := funext fun a => by fin_cases a <;> rfl
theorem edge_zeros1 : (![0] : Fin 1 → Nat) = fun _ => 0 := funext fun a => by fin_cases a; rfl

/-- What the body leaves in the output block, entry by entry, from the seven input blocks. -/
theorem edge_out_apply (x0 : Vec Ideal S5000x32 .f32) (x1 : Vec Ideal S5000x64 .f32) (x2 : Vec Ideal S32x64 .f32)
    (x3 : Vec Ideal S64 .f32) (x4 : Vec Ideal S64x64 .f32) (x5 : Vec Ideal S64 .f32) (x6 : Vec Ideal S1 .f32)
    (p : Fin 5000) (q : Fin 64) :
    out1_7 x0 x1 x2 x3 x4 x5 x6 (ix2 p q)
      = (x1 (ix2 p q) * Cert.GraphConv.mlp (fun l => x0 (ix2 p l)) (fun l k => x2 (ix2 l k)) (fun k => x3 (ix1 k))
          (fun k j => x4 (ix2 k j)) (fun j => x5 (ix1 j)) q) * x6 (ix1 0) := by
  unfold out1_7
  rw [View.canon_unit_zero edge_zeros2]
  simp only [View.ld_unit_zero (S := S5000x32) edge_zeros2, View.ld_unit_zero (S := S32x64) edge_zeros2,
    View.ld_unit_zero (S := S64) edge_zeros1, View.ld_unit_zero (S := S64x64) edge_zeros2,
    View.ld_unit_zero (S := S5000x64) edge_zeros2, View.ld_unit_zero (S := S1) edge_zeros1]
  exact edge_pay_apply _ _ _ _ _ _ _ p q

/-- The block index maps over the grid: the row-blocked windows sit at block `(t, 0)`, the others at block zero. -/
theorem edge_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) = t.val ∧ win1_7.index t (1 : Fin 2) = 0
    ∧ t.val < 200 :=
  (by decide +kernel : ∀ t : Fin grid1.N, _)

/-- The message array as the mathematics states it, from the arrays the region is entered with. -/
abbrev edge_msgs (V : (c : Dev nD) → (b : Ref sig .tc) → Buf (Elt Ideal) ((c : Thread nD τ).loc b)) (c : Dev nD) :
    S1000000x64.Idx → EReal :=
  Cert.GraphConv.edgeRows (n := 1000000) (din := 32) (dh := 64) (dout := 64)
    (V c main_arg1) (V c main_v5) (V c main_arg6) (V c main_arg7) (V c main_arg8) (V c main_arg9) (V c main_arg11)

section Reads
variable (V : (c : Dev nD) → (b : Ref sig .tc) → Buf (Elt Ideal) ((c : Thread nD τ).loc b)) (c : Dev nD) (t : Fin cfg1.N)

/-- Block `t` of the edge rows, read at row `p`: the array's row `5000 t + p`. -/
theorem edge_ea_blk_apply (p : Fin 5000) (l : Fin 32) (h : t.val * 5000 + p.val < 1000000) :
    iblk1 (F := Ideal) V c 0 t (ix2 p l) = V c main_arg1 (ix2 ⟨t.val * 5000 + p.val, h⟩ l) := by
  obtain ⟨e0, e1, -⟩ := edge_idx_facts t
  show V c main_arg1 (((cfg1.win 0).blk t).view.emb (ix2 p l)) = _
  refine congrArg (V c main_arg1) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 32 + 1 * l.val = l.val; rw [e1]; omega

/-- Block `t` of the gathered rows, read at row `p`: the array's row `5000 t + p`. -/
theorem edge_xg_blk_apply (p : Fin 5000) (q : Fin 64) (h : t.val * 5000 + p.val < 1000000) :
    iblk1 (F := Ideal) V c 1 t (ix2 p q) = V c main_v5 (ix2 ⟨t.val * 5000 + p.val, h⟩ q) := by
  obtain ⟨-, -, e0, e1, -⟩ := edge_idx_facts t
  show V c main_v5 (((cfg1.win 1).blk t).view.emb (ix2 p q)) = _
  refine congrArg (V c main_v5) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * q.val = q.val; rw [e1]; omega

/-- The first weight matrix is staged whole. -/
theorem edge_w1_blk_apply (l : Fin 32) (k : Fin 64) :
    iblk1 (F := Ideal) V c 2 t (ix2 l k) = V c main_arg6 (ix2 l k) := by
  obtain ⟨-, -, -, -, e0, e1, -⟩ := edge_idx_facts t
  show V c main_arg6 (((cfg1.win 2).blk t).view.emb (ix2 l k)) = _
  refine congrArg (V c main_arg6) (funext fun a => Fin.ext ?_)
  match a with
  | ⟨0, _⟩ => show win1_2.index t (0 : Fin 2) * 32 + 1 * l.val = l.val; rw [e0]; omega
  | ⟨1, _⟩ => show win1_2.index t (1 : Fin 2) * 64 + 1 * k.val = k.val; rw [e1]; omega

/-- The first bias is staged whole. -/
theorem edge_b1_blk_apply (k : Fin 64) :
    iblk1 (F := Ideal) V c 3 t (ix1 k) = V c main_arg7 (ix1 k) := by
  obtain ⟨-, -, -, -, -, -, e0, -⟩ := edge_idx_facts t
  show V c main_arg7 (((cfg1.win 3).blk t).view.emb (ix1 k)) = _
  refine congrArg (V c main_arg7) (funext fun a => Fin.ext ?_)
  match a with
  | ⟨0, _⟩ => show win1_3.index t (0 : Fin 1) * 64 + 1 * k.val = k.val; rw [e0]; omega

/-- The second weight matrix is staged whole. -/
theorem edge_w2_blk_apply (k : Fin 64) (j : Fin 64) :
    iblk1 (F := Ideal) V c 4 t (ix2 k j) = V c main_arg8 (ix2 k j) := by
  obtain ⟨-, -, -, -, -, -, -, e0, e1, -⟩ := edge_idx_facts t
  show V c main_arg8 (((cfg1.win 4).blk t).view.emb (ix2 k j)) = _
  refine congrArg (V c main_arg8) (funext fun a => Fin.ext ?_)
  match a with
  | ⟨0, _⟩ => show win1_4.index t (0 : Fin 2) * 64 + 1 * k.val = k.val; rw [e0]; omega
  | ⟨1, _⟩ => show win1_4.index t (1 : Fin 2) * 64 + 1 * j.val = j.val; rw [e1]; omega

/-- The second bias is staged whole. -/
theorem edge_b2_blk_apply (j : Fin 64) :
    iblk1 (F := Ideal) V c 5 t (ix1 j) = V c main_arg9 (ix1 j) := by
  obtain ⟨-, -, -, -, -, -, -, -, -, e0, -⟩ := edge_idx_facts t
  show V c main_arg9 (((cfg1.win 5).blk t).view.emb (ix1 j)) = _
  refine congrArg (V c main_arg9) (funext fun a => Fin.ext ?_)
  match a with
  | ⟨0, _⟩ => show win1_5.index t (0 : Fin 1) * 64 + 1 * j.val = j.val; rw [e0]; omega

/-- The scale is staged whole. -/
theorem edge_dp_blk_apply (z : Fin 1) :
    iblk1 (F := Ideal) V c 6 t (ix1 z) = V c main_arg11 (ix1 z) := by
  obtain ⟨-, -, -, -, -, -, -, -, -, -, e0, -⟩ := edge_idx_facts t
  show V c main_arg11 (((cfg1.win 6).blk t).view.emb (ix1 z)) = _
  refine congrArg (V c main_arg11) (funext fun a => Fin.ext ?_)
  match a with
  | ⟨0, _⟩ => show win1_6.index t (0 : Fin 1) * 1 + 1 * z.val = z.val; rw [e0]; omega

/-- Row `p` of the output's block `t` sits at row `5000 t + p` of the array. -/
theorem edge_out_emb (p : Fin 5000) (q : Fin 64) (h : t.val * 5000 + p.val < 1000000) :
    ((cfg1.win 7).blk t).view.emb (ix2 p q) = (ix2 ⟨t.val * 5000 + p.val, h⟩ q : S1000000x64.Idx) := by
  obtain ⟨-, -, -, -, -, -, -, -, -, -, -, e0, e1, -⟩ := edge_idx_facts t
  refine funext fun a => Fin.ext ?_
  match a with
  | ⟨0, _⟩ => show win1_7.index t (0 : Fin 2) * 5000 + 1 * p.val = t.val * 5000 + p.val; rw [e0]; omega
  | ⟨1, _⟩ => show win1_7.index t (1 : Fin 2) * 64 + 1 * q.val = q.val; rw [e1]; omega

/-- What point `t` writes back is block `t` of the message array. -/
theorem edge_flushed_eq :
    (dat1 (F := Ideal) V c).flushed 7 t = ((cfg1.win 7).blk t).view.read (Elt Ideal) (edge_msgs V c) := by
  show (cfg1.win 7).cut (grid1.coords t) ((dat1 V c).after 7 t) = _
  rw [after1_7]
  funext j
  obtain ⟨p, q, rfl⟩ : ∃ (p : Fin 5000) (q : Fin 64), j = ix2 p q := ⟨j 0, j 1, eq_ix2 j⟩
  have ht : t.val < 200 := (edge_idx_facts t).2.2.2.2.2.2.2.2.2.2.2.2.2
  have hr : t.val * 5000 + p.val < 1000000 := by have := p.isLt; omega
  show out1_7 (F := Ideal) _ _ _ _ _ _ _ (ix2 p q) = edge_msgs V c (((cfg1.win 7).blk t).view.emb (ix2 p q))
  rw [edge_out_apply, edge_out_emb t p q hr]
  simp only [edge_ea_blk_apply V c t p _ hr, edge_xg_blk_apply V c t p _ hr, edge_w1_blk_apply, edge_b1_blk_apply, edge_w2_blk_apply,
    edge_b2_blk_apply, edge_dp_blk_apply]
  rfl

end Reads

/-- An index of the message array lies in point `t`'s block iff each coordinate lies in the block's range on its axis. -/
theorem edge_mem_blk (t : Fin cfg1.N) (i : S1000000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v6).slice (win1_7.rect t)).set ↔ _
  rw [View.set_slice_whole, Rect.mem_set_unit]
  exact Iff.rfl

/-- Every row of the message array is written: row `r` by the point `r / 5000`. -/
theorem edge_covered (i : S1000000x64.Idx) :
    ∃ t : Fin cfg1.N, (cfg1.win 7).flush t = true ∧ i ∈ ((cfg1.win 7).blk t).view.set := by
  have hi0 : (i 0).val < 1000000 := (i 0).isLt
  have hi1 : (i 1).val < 64 := (i 1).isLt
  have hlt : (i 0).val / 5000 < 200 := by omega
  obtain ⟨-, -, -, -, -, -, -, -, -, -, -, e0, e1, -⟩ := edge_idx_facts ⟨(i 0).val / 5000, hlt⟩
  have e0' : win1_7.index ⟨(i 0).val / 5000, hlt⟩ (0 : Fin 2) = (i 0).val / 5000 := e0
  refine ⟨⟨(i 0).val / 5000, hlt⟩, flush1_7 _, ?_⟩
  rw [edge_mem_blk]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e0']; omega
  | ⟨1, _⟩ =>
    show win1_7.index ⟨(i 0).val / 5000, hlt⟩ (1 : Fin 2) * 64 ≤ (i 1).val
      ∧ (i 1).val < win1_7.index ⟨(i 0).val / 5000, hlt⟩ (1 : Fin 2) * 64 + 64
    rw [e1]; omega

/-- The message array after region 1, for any contents `V` the region is entered with. -/
theorem region1 (V : (c : Dev nD) → (b : Ref sig .tc) → Buf (Elt Ideal) ((c : Thread nD τ).loc b)) (c : Dev nD) :
    (dat1 (F := Ideal) V c).arrAt 7 cfg1.N
      = Cert.GraphConv.edgeRows (n := 1000000) (din := 32) (dh := 64) (dout := 64)
          (V c main_arg1) (V c main_v5) (V c main_arg6) (V c main_arg7) (V c main_arg8) (V c main_arg9) (V c main_arg11) := by
  exact (dat1 (F := Ideal) V c).arrAt_eq_of_cover 7 (edge_msgs V c) (fun t _ => edge_flushed_eq V c t) edge_covered

end Cert.KernelIdeal.Value

end
-- ==== Proof.Region2.lean ====
/- Region 2 (the residual and the row normalisation, 20 blocks of 5000 rows). -/
import proofs.«409998_j48696339202115_2_alg».proof.Proof.Gen.KernelIdeal.Frame
import proofs.«409998_j48696339202115_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## Layout operations of a row-wise body, read at an index -/

section Layout
variable {α : Type}

/-- A vector of `a` entries cast to one column `[a, 1]` reads, at `(r, u)`, the entry `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- One element `[1, 1]` broadcast to `[a, b]` reads that element everywhere. -/
theorem broadcastTo_11_ab_apply {a b : ℕ} (v : (⟨2, ![1, 1]⟩ : Shape).Idx → α) (h : (⟨2, ![1, 1]⟩ : Shape).Broadcasts ⟨2, ![a, b]⟩)
    (r : Fin a) (j : Fin b) : broadcastTo ⟨2, ![a, b]⟩ v h (ix2 r j) = v (ix2 (0 : Fin 1) (0 : Fin 1)) := by
  refine broadcastTo_apply v h (ix2 r j) (ix2 (0 : Fin 1) (0 : Fin 1)) fun ax => ?_
  match ax with
  | ⟨0, _⟩ => rfl
  | ⟨1, _⟩ => rfl

end Layout

/-! ## The body's arithmetic at an index -/

/-- A reciprocal square root of a vector, read at an index. -/
theorem rsqrt_apply {s : Shape} {φ : FTy} (a : FVec Ideal s φ) (i : s.Idx) : rsqrt a i = Ideal.rsqrt (a i) := rfl

/-- The sum over the feature axis of a `[5000, 64]` block, read at row `r`: the sum of that row's 64 entries. -/
theorem rowSum_apply (src : FVec Ideal S5000x64 .f32) (h : S5000x64.Reduces [1] S5000) (hφ : FKind.Formats .f32)
    (hacc : (0x00000000#32 : BitVec 32) = 0x00000000#32) (r : Fin 5000) :
    multiReduction .add [1] S5000 src 0x00000000#32 h hφ hacc (ix1 r) = ∑ k : Fin 64, src (ix2 r k) := by
  refine (Ideal.multiReduction_add_single src 0x00000000#32 h hφ hacc (ix1 r)).trans ?_
  refine Finset.sum_congr rfl (fun k _ => congrArg src (funext fun a => ?_))
  fin_cases a <;> rfl

/-- The body's stored value at row `r`, column `j` of its block: the residual row `x + agg · w` normalised. -/
theorem pay_row (x0 x1 : Vec Ideal S5000x64 .f32) (x2 : Vec Ideal S1 .f32) (x3 x4 : Vec Ideal S64 .f32) (r : Fin 5000) (j : Fin 64) :
    k2_pay1 x0 x1 x2 x3 x4 (ix2 r j)
      = Cert.GraphConv.normRow (fun a : Fin 64 => x0 (ix2 r a) + x1 (ix2 r a) * x2 (ix1 (0 : Fin 1)))
          (fun a => x3 (ix1 a)) (fun a => x4 (ix1 a)) j := by
  unfold k2_pay1 Cert.GraphConv.normRow
  simp only [addf_apply, mulf_apply, subf_apply, divf_apply, broadcast_apply, rsqrt_apply,
    broadcastTo_a1_ab_apply, broadcastTo_11_ab_apply, broadcastTo_1b_ab_apply, shapeCast_a_a1_apply, shapeCast_a_1a_apply,
    shapeCast_self]
  rw [rowSum_apply]
  simp only [addf_apply, mulf_apply, subf_apply, divf_apply, broadcast_apply, rsqrt_apply,
    broadcastTo_a1_ab_apply, broadcastTo_11_ab_apply, broadcastTo_1b_ab_apply, shapeCast_a_a1_apply, shapeCast_a_1a_apply,
    shapeCast_self]
  rw [rowSum_apply]
  simp only [addf_apply, mulf_apply, subf_apply, divf_apply, broadcast_apply, rsqrt_apply,
    broadcastTo_a1_ab_apply, broadcastTo_11_ab_apply, broadcastTo_1b_ab_apply, shapeCast_a_a1_apply, shapeCast_a_1a_apply,
    shapeCast_self]
  rw [rowSum_apply]
  simp only [addf_apply, mulf_apply, subf_apply, divf_apply, broadcast_apply, rsqrt_apply,
    broadcastTo_a1_ab_apply, broadcastTo_11_ab_apply, broadcastTo_1b_ab_apply, shapeCast_a_a1_apply, shapeCast_a_1a_apply,
    shapeCast_self]
  rfl

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 20 grid points: the row-blocked windows sit at block row `t`, block column 0;
    the whole-array windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 ∧ t.val < 20 :=
  (by decide +kernel : ∀ t : Fin grid2.N, _)

/-- Row `p`, column `a` of the block of `x` at point `t` is row `5000 t + p` of `x`. -/
theorem blk_x (V : (c : Dev nD) → (b : Ref sig .tc) → Buf (Elt Ideal) ((c : Thread nD τ).loc b)) (c : Dev nD) (t : Fin cfg2.N)
    (p : Fin 5000) (a : Fin 64) (k : Fin 100000) (hk : k.val = t.val * 5000 + p.val) :
    (iblk2 (F := Ideal) V c 0 t : Vec Ideal S5000x64 .f32) (ix2 p a) = (V c main_arg0 : S100000x64.Idx → EReal) (ix2 k a) := by
  obtain ⟨e0, e1, -⟩ := idx_facts t
  show V c main_arg0 (((cfg2.win 0).blk t).view.emb (ix2 p a)) = V c main_arg0 (ix2 k a)
  refine congrArg (V c main_arg0) (funext fun ax => Fin.ext ?_)
  match ax with
  | ⟨0, _⟩ => show win2_0.index t (0 : Fin 2) * 5000 + 1 * p.val = k.val; omega
  | ⟨1, _⟩ => show win2_0.index t (1 : Fin 2) * 64 + 1 * a.val = a.val; omega

/-- Row `p`, column `a` of the block of the aggregated messages at point `t` is their row `5000 t + p`. -/
theorem blk_agg (V : (c : Dev nD) → (b : Ref sig .tc) → Buf (Elt Ideal) ((c : Thread nD τ).loc b)) (c : Dev nD) (t : Fin cfg2.N)
    (p : Fin 5000) (a : Fin 64) (k : Fin 100000) (hk : k.val = t.val * 5000 + p.val) :
    (iblk2 (F := Ideal) V c 1 t : Vec Ideal S5000x64 .f32) (ix2 p a) = (V c main_v9 : S100000x64.Idx → EReal) (ix2 k a) := by
  obtain ⟨-, -, e0, e1, -⟩ := idx_facts t
  show V c main_v9 (((cfg2.win 1).blk t).view.emb (ix2 p a)) = V c main_v9 (ix2 k a)
  refine congrArg (V c main_v9) (funext fun ax => Fin.ext ?_)
  match ax with
  | ⟨0, _⟩ => show win2_1.index t (0 : Fin 2) * 5000 + 1 * p.val = k.val; omega
  | ⟨1, _⟩ => show win2_1.index t (1 : Fin 2) * 64 + 1 * a.val = a.val; omega

/-- The residual weight's block at every point is the weight. -/
theorem blk_w (V : (c : Dev nD) → (b : Ref sig .tc) → Buf (Elt Ideal) ((c : Thread nD τ).loc b)) (c : Dev nD) (t : Fin cfg2.N) (u : Fin 1) :
    (iblk2 (F := Ideal) V c 2 t : Vec Ideal S1 .f32) (ix1 u) = (V c main_arg10 : S1.Idx → EReal) (ix1 u) := by
  obtain ⟨-, -, -, -, e0, -⟩ := idx_facts t
  show V c main_arg10 (((cfg2.win 2).blk t).view.emb (ix1 u)) = V c main_arg10 (ix1 u)
  refine congrArg (V c main_arg10) (funext fun ax => Fin.ext ?_)
  match ax with
  | ⟨0, _⟩ => show win2_2.index t (0 : Fin 1) * 1 + 1 * u.val = u.val; omega

/-- The scale's block at every point is the scale. -/
theorem blk_γ (V : (c : Dev nD) → (b : Ref sig .tc) → Buf (Elt Ideal) ((c : Thread nD τ).loc b)) (c : Dev nD) (t : Fin cfg2.N) (a : Fin 64) :
    (iblk2 (F := Ideal) V c 3 t : Vec Ideal S64 .f32) (ix1 a) = (V c main_arg12 : S64.Idx → EReal) (ix1 a) := by
  obtain ⟨-, -, -, -, -, e0, -⟩ := idx_facts t
  show V c main_arg12 (((cfg2.win 3).blk t).view.emb (ix1 a)) = V c main_arg12 (ix1 a)
  refine congrArg (V c main_arg12) (funext fun ax => Fin.ext ?_)
  match ax with
  | ⟨0, _⟩ => show win2_3.index t (0 : Fin 1) * 64 + 1 * a.val = a.val; omega

/-- The shift's block at every point is the shift. -/
theorem blk_β (V : (c : Dev nD) → (b : Ref sig .tc) → Buf (Elt Ideal) ((c : Thread nD τ).loc b)) (c : Dev nD) (t : Fin cfg2.N) (a : Fin 64) :
    (iblk2 (F := Ideal) V c 4 t : Vec Ideal S64 .f32) (ix1 a) = (V c main_arg13 : S64.Idx → EReal) (ix1 a) := by
  obtain ⟨-, -, -, -, -, -, e0, -⟩ := idx_facts t
  show V c main_arg13 (((cfg2.win 4).blk t).view.emb (ix1 a)) = V c main_arg13 (ix1 a)
  refine congrArg (V c main_arg13) (funext fun ax => Fin.ext ?_)
  match ax with
  | ⟨0, _⟩ => show win2_4.index t (0 : Fin 1) * 64 + 1 * a.val = a.val; omega

/-- A normalised row depends on the row, the scale and the shift entry by entry. -/
theorem normRow_congr {d : ℕ} {o o' γ γ' β β' : Fin d → EReal} (ho : ∀ a, o a = o' a) (hγ : ∀ a, γ a = γ' a)
    (hβ : ∀ a, β a = β' a) (j : Fin d) : Cert.GraphConv.normRow o γ β j = Cert.GraphConv.normRow o' γ' β' j := by
  rw [funext ho, funext hγ, funext hβ]

/-- What point `t` writes back is block `t` of the normalised residual rows of the arrays the region is entered with. -/
theorem flushed_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (Cert.GraphConv.normRows (n := 100000) (d := 64) (V c main_arg0) (V c main_v9) (V c main_arg10) (V c main_arg12) (V c main_arg13)) := by
  show (cfg2.win 5).cut (grid2.coords t) ((dat2 V c).after 5 t) = _
  rw [after2_5]
  unfold out2_5
  rw [View.canon_unit_zero zero2]
  simp only [View.ld_unit_zero (S := S5000x64) zero2, View.ld_unit_zero (S := S1) zero1, View.ld_unit_zero (S := S64) zero1]
  obtain ⟨-, -, -, -, -, -, -, e5, e6, ht⟩ := idx_facts t
  funext y
  obtain ⟨p, q, rfl⟩ : ∃ (p : Fin 5000) (q : Fin 64), y = ix2 p q := ⟨y 0, y 1, eq_ix2 y⟩
  have hk : t.val * 5000 + p.val < 100000 := by have := p.isLt; omega
  have hemb : ((cfg2.win 5).blk t).view.emb (ix2 p q) = (ix2 (⟨t.val * 5000 + p.val, hk⟩ : Fin 100000) q : S100000x64.Idx) := by
    funext ax; apply Fin.ext
    match ax with
    | ⟨0, _⟩ => show win2_5.index t (0 : Fin 2) * 5000 + 1 * p.val = t.val * 5000 + p.val; omega
    | ⟨1, _⟩ => show win2_5.index t (1 : Fin 2) * 64 + 1 * q.val = q.val; omega
  show k2_pay1 (F := Ideal) _ _ _ _ _ (ix2 p q) = Cert.GraphConv.normRows _ _ _ _ _ (((cfg2.win 5).blk t).view.emb (ix2 p q))
  rw [hemb]
  refine (pay_row _ _ _ _ _ p q).trans ?_
  exact normRow_congr
    (fun a => by rw [blk_x V c t p a ⟨_, hk⟩ rfl, blk_agg V c t p a ⟨_, hk⟩ rfl, blk_w V c t 0])
    (fun a => blk_γ V c t a) (fun a => blk_β V c t a) q

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v10).slice (win2_5.rect t)).set ↔ _
  rw [View.set_slice_whole, Rect.mem_set_unit]
  exact Iff.rfl

/-- Every row of the result array is in some point's block: row `r` in that of point `r / 5000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have ht : (i 0).val / 5000 < cfg2.N := by show (i 0).val / 5000 < 20; omega
  obtain ⟨-, -, -, -, -, -, -, e5, e6, -⟩ := idx_facts ⟨(i 0).val / 5000, ht⟩
  have e5' : win2_5.index ⟨(i 0).val / 5000, ht⟩ (0 : Fin 2) = (i 0).val / 5000 := e5
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    omega

/-- The result array after region 2, for any contents `V` the region is entered with. -/
theorem region2 (V : (c : Dev nD) → (b : Ref sig .tc) → Buf (Elt Ideal) ((c : Thread nD τ).loc b)) (c : Dev nD) :
    (dat2 (F := Ideal) V c).arrAt 5 cfg2.N
      = Cert.GraphConv.normRows (n := 100000) (d := 64)
          (V c main_arg0) (V c main_v9) (V c main_arg10) (V c main_arg12) (V c main_arg13) :=
  (dat2 (F := Ideal) V c).arrAt_eq_of_cover 5 _ (fun t _ => flushed_eq V c t) cover

end Cert.KernelIdeal.Value

end
-- ==== Proof.KValue.lean ====
/- The kernel program's value: its run ends with the result array at the composed stages of the launch's arrays — the
   node perceptron of every row (region 0), those rows gathered at the source indices, the message formula of every
   edge row (region 1), the messages scatter-added by destination, the residual and normalisation of every row
   (region 2) — when every source index is a row number (so that the gather's fill never applies). -/
import proofs.«409998_j48696339202115_2_alg».proof.Proof.KRun
import proofs.«409998_j48696339202115_2_alg».proof.Proof.KHostA
import proofs.«409998_j48696339202115_2_alg».proof.Proof.KHostB
import proofs.«409998_j48696339202115_2_alg».proof.Proof.PreTake
import proofs.«409998_j48696339202115_2_alg».proof.Proof.Region0
import proofs.«409998_j48696339202115_2_alg».proof.Proof.Region1
import proofs.«409998_j48696339202115_2_alg».proof.Proof.Region2

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat Cfg Window)

/-- The kernel program's result as one function of its argument arrays (the fifteenth, the edge list, through its two rows). -/
def kernelOut (x : FVec Ideal S100000x64 .f32) (ea : FVec Ideal S1000000x32 .f32) (W1n : FVec Ideal S64x128 .f32) (b1n : FVec Ideal S128 .f32)
    (W2n : FVec Ideal S128x64 .f32) (b2n : FVec Ideal S64 .f32) (W1e : FVec Ideal S32x64 .f32) (b1e : FVec Ideal S64 .f32)
    (W2e : FVec Ideal S64x64 .f32) (b2e : FVec Ideal S64 .f32) (rw dp : FVec Ideal S1 .f32) (γ β : FVec Ideal S64 .f32)
    (ei : IVec S2x1000000 32) : FVec Ideal S100000x64 .f32 :=
  Cert.GraphConv.normRows (n := 100000) (d := 64) x
    (scatterRows (F := Ideal) (dstOf ei)
      (Cert.GraphConv.edgeRows (n := 1000000) (din := 32) (dh := 64) (dout := 64) ea
        (Host.gather gather_S100000x64_S1000000x1_S1000000x64_1_0_n_n_0_1_164
          (Cert.GraphConv.mlpRows (n := 100000) (din := 64) (dh := 128) (dout := 64) x W1n b1n W2n b2n) (takeIdx (srcOf ei)))
        W1e b1e W2e b2e dp))
    rw γ β

variable (m : (ℓ : Loc nD τ sig) → Buf (Elt Ideal) ℓ) (ρ : Dev nD → PrngReg)

/-- The last boundary's contents at the result buffer, read back through the three regions and the host stretches. -/
theorem W6_value (c : Dev nD) (h : SrcInRange (m ((c.tc : Thread nD τ).loc main_arg14))) :
    W6 m ρ c (Proc.devRef .tc main_v10)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  rw [W6_v10 m ρ c, region2 (V5 m ρ) c, V5_arg0 m ρ c, V5_arg10 m ρ c, V5_arg12 m ρ c, V5_arg13 m ρ c, V5_v9 m ρ c,
    region1 (V3 m ρ) c, V3_arg1 m ρ c, V3_arg6 m ρ c, V3_arg7 m ρ c, V3_arg8 m ρ c, V3_arg9 m ρ c, V3_arg11 m ρ c, V3_v5 m ρ c,
    region0 (V0 m ρ) c, V0_eq m ρ c main_arg0, V0_eq m ρ c main_arg2, V0_eq m ρ c main_arg3, V0_eq m ρ c main_arg4, V0_eq m ρ c main_arg5,
    takeRows_eq _ _ h]
  rfl

/-- The kernel program's run with its result named. -/
theorem run (hpre : ∀ c : Dev nD, SrcInRange (m ((c.tc : Thread nD τ).loc main_arg14))) :
    θ_run defs (onTc (τ := τ) (main (F := Ideal))) ⟨m, fun _ => 0, ρ⟩ (fun r => ∀ c : Dev nD,
      r.2.mem ((c.tc : Thread nD τ).loc main_v10)
        = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r hr c => ⟨(hr c).1.trans (W6_value m ρ c (hpre c)), (hr c).2⟩) (run_named m ρ)

end Cert.KernelIdeal.Value

end
-- ==== Proof.RTerms.lean ====
/-
  The reference program's operations grouped into the five stages of the computation, each a pure function of the
  arrays it reads, in the reference's own spelling (whole-array host operations): the node perceptron, the edge
  perceptron with the message product, the row gather by the wrapped source index, the scatter-add by the
  destination index, and the residual with the row normalisation.
-/
import proofs.«409998_j48696339202115_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The node perceptron on the whole node array: `leaky (x·W1 + b1)·W2 + b2`. -/
def refNode (x : FVec F S100000x64 .f32) (W1 : FVec F S64x128 .f32) (b1 : FVec F S128 .f32) (W2 : FVec F S128x64 .f32)
    (b2 : FVec F S64 .f32) : FVec F S100000x64 .f32 :=
  addf (Host.dotGeneral dot_S100000x128_S128x64_S100000x64_1_0_0_1_n_n none
      (select
        (cmpf .oge
          (addf (Host.dotGeneral dot_S100000x64_S64x128_S100000x128_1_0_0_1_n_n none x W1)
            (broadcastInDim S100000x128 ![0, 1] bcast_S1x128_S100000x128_0_1 (broadcastInDim S1x128 ![1] bcast_S128_S1x128_1 b1)))
          (broadcastInDim S100000x128 ![] bcast_S_S100000x128 (constant S_ .f32 0x00000000#32)))
        (addf (Host.dotGeneral dot_S100000x64_S64x128_S100000x128_1_0_0_1_n_n none x W1)
          (broadcastInDim S100000x128 ![0, 1] bcast_S1x128_S100000x128_0_1 (broadcastInDim S1x128 ![1] bcast_S128_S1x128_1 b1)))
        (mulf (broadcastInDim S100000x128 ![] bcast_S_S100000x128 (id (constant S_ .f32 0x3DCCCCCD#32)))
          (addf (Host.dotGeneral dot_S100000x64_S64x128_S100000x128_1_0_0_1_n_n none x W1)
            (broadcastInDim S100000x128 ![0, 1] bcast_S1x128_S100000x128_0_1 (broadcastInDim S1x128 ![1] bcast_S128_S1x128_1 b1)))))
      W2)
    (broadcastInDim S100000x64 ![0, 1] bcast_S1x64_S100000x64_0_1 (broadcastInDim S1x64 ![1] bcast_S64_S1x64_1 b2))

/-- The edge perceptron on the whole edge array. -/
def refEdge (ea : FVec F S1000000x32 .f32) (W1 : FVec F S32x64 .f32) (b1 : FVec F S64 .f32) (W2 : FVec F S64x64 .f32)
    (b2 : FVec F S64 .f32) : FVec F S1000000x64 .f32 :=
  addf (Host.dotGeneral dot_S1000000x64_S64x64_S1000000x64_1_0_0_1_n_n none
      (select
        (cmpf .oge
          (addf (Host.dotGeneral dot_S1000000x32_S32x64_S1000000x64_1_0_0_1_n_n none ea W1)
            (broadcastInDim S1000000x64 ![0, 1] bcast_S1x64_S1000000x64_0_1 (broadcastInDim S1x64 ![1] bcast_S64_S1x64_1 b1)))
          (broadcastInDim S1000000x64 ![] bcast_S_S1000000x64 (constant S_ .f32 0x00000000#32)))
        (addf (Host.dotGeneral dot_S1000000x32_S32x64_S1000000x64_1_0_0_1_n_n none ea W1)
          (broadcastInDim S1000000x64 ![0, 1] bcast_S1x64_S1000000x64_0_1 (broadcastInDim S1x64 ![1] bcast_S64_S1x64_1 b1)))
        (mulf (broadcastInDim S1000000x64 ![] bcast_S_S1000000x64 (id (constant S_ .f32 0x3DCCCCCD#32)))
          (addf (Host.dotGeneral dot_S1000000x32_S32x64_S1000000x64_1_0_0_1_n_n none ea W1)
            (broadcastInDim S1000000x64 ![0, 1] bcast_S1x64_S1000000x64_0_1 (broadcastInDim S1x64 ![1] bcast_S64_S1x64_1 b1)))))
      W2)
    (broadcastInDim S1000000x64 ![0, 1] bcast_S1x64_S1000000x64_0_1 (broadcastInDim S1x64 ![1] bcast_S64_S1x64_1 b2))

/-- The messages: gathered source rows times transformed edge rows times the scale. -/
def refMsgs (xg : FVec F S1000000x64 .f32) (ea : FVec F S1000000x32 .f32) (W1 : FVec F S32x64 .f32) (b1 : FVec F S64 .f32)
    (W2 : FVec F S64x64 .f32) (b2 : FVec F S64 .f32) (dp : FVec F S1 .f32) : FVec F S1000000x64 .f32 :=
  mulf (mulf xg (refEdge ea W1 b1 W2 b2))
    (broadcastInDim S1000000x64 ![0, 1] bcast_S1x1_S1000000x64_0_1 (broadcastInDim S1x1 ![1] bcast_S1_S1x1_1 dp))

/-- Row 0 and row 1 of the edge list. -/
def srcOf (ei : IVec S2x1000000 32) : IVec S1000000 32 :=
  shapeCast S1000000 (extractStridedSlice S1x1000000 ![0, 0] ei slices_S2x1000000_S1x1000000_0_0) shapeCasts_S1x1000000_S1000000
def dstOf (ei : IVec S2x1000000 32) : IVec S1000000 32 :=
  shapeCast S1000000 (extractStridedSlice S1x1000000 ![1, 0] ei slices_S2x1000000_S1x1000000_1_0) shapeCasts_S1x1000000_S1000000

/-- The gather's index column: a negative source index wrapped once by the node count. -/
def takeIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The source rows gathered. -/
def gatherRows (x : FVec F S100000x64 .f32) (src : IVec S1000000 32) : FVec F S1000000x64 .f32 :=
  Host.gather gather_S100000x64_S1000000x1_S1000000x64_1_0_n_n_0_1_164 x (takeIdx src)

/-- The messages summed into their destination rows, from zero. -/
def scatterRows (dst : IVec S1000000 32) (u : FVec F S1000000x64 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst) u

/-- The residual `x + agg · w`. -/
def refResid (x agg : FVec F S100000x64 .f32) (w : FVec F S1 .f32) : FVec F S100000x64 .f32 :=
  addf x (mulf agg (broadcastInDim S100000x64 ![0, 1] bcast_S1x1_S100000x64_0_1 (broadcastInDim S1x1 ![1] bcast_S1_S1x1_1 w)))

/-- A row's mean as a column: the row sum over 64. -/
def refMean (o : FVec F S100000x64 .f32) : FVec F S100000x1 .f32 :=
  Host.divf (broadcastInDim S100000x1 ![0] bcast_S100000_S100000x1_0
      (Host.reduceAdd o (constant S_ .f32 0x00000000#32) reducesTo_S100000x64_S100000_d1 h_S_))
    (broadcastInDim S100000x1 ![] bcast_S_S100000x1 (constant S_ .f32 0x42800000#32))

/-- The row normalisation of `o`: centred, scaled by the reciprocal square root of the variance plus ε, then by γ, shifted by β. -/
def refNorm (o : FVec F S100000x64 .f32) (γ β : FVec F S64 .f32) : FVec F S100000x64 .f32 :=
  addf
    (mulf
      (mulf (subf o (broadcastInDim S100000x64 ![0, 1] bcast_S100000x1_S100000x64_0_1 (refMean o)))
        (broadcastInDim S100000x64 ![0, 1] bcast_S100000x1_S100000x64_0_1
          (Host.rsqrt
            (addf
              (Host.divf (broadcastInDim S100000x1 ![0] bcast_S100000_S100000x1_0
                  (Host.reduceAdd
                    (mulf (subf o (broadcastInDim S100000x64 ![0, 1] bcast_S100000x1_S100000x64_0_1 (refMean o)))
                      (subf o (broadcastInDim S100000x64 ![0, 1] bcast_S100000x1_S100000x64_0_1 (refMean o))))
                    (constant S_ .f32 0x00000000#32) reducesTo_S100000x64_S100000_d1 h_S_))
                (broadcastInDim S100000x1 ![] bcast_S_S100000x1 (constant S_ .f32 0x42800000#32)))
              (broadcastInDim S100000x1 ![] bcast_S_S100000x1 (constant S_ .f32 0x3727C5AC#32))))))
      (broadcastInDim S100000x64 ![0, 1] bcast_S1x64_S100000x64_0_1 (broadcastInDim S1x64 ![1] bcast_S64_S1x64_1 γ)))
    (broadcastInDim S100000x64 ![0, 1] bcast_S1x64_S100000x64_0_1 (broadcastInDim S1x64 ![1] bcast_S64_S1x64_1 β))

/-- The whole reference: its result array as one function of its fifteen arguments. -/
def refOut (x : FVec F S100000x64 .f32) (ea : FVec F S1000000x32 .f32) (W1n : FVec F S64x128 .f32) (b1n : FVec F S128 .f32)
    (W2n : FVec F S128x64 .f32) (b2n : FVec F S64 .f32) (W1e : FVec F S32x64 .f32) (b1e : FVec F S64 .f32)
    (W2e : FVec F S64x64 .f32) (b2e : FVec F S64 .f32) (rw dp : FVec F S1 .f32) (γ β : FVec F S64 .f32)
    (ei : IVec S2x1000000 32) : FVec F S100000x64 .f32 :=
  refNorm (refResid x (scatterRows (dstOf ei)
      (refMsgs (gatherRows (refNode x W1n b1n W2n b2n) (srcOf ei)) ea W1e b1e W2e b2e dp)) rw) γ β

end Cert.ReferenceIdeal.RefValue

end
-- ==== Proof.RefValue.lean ====
/- The reference's whole-array stages, read index by index, are the row formulas of the specification. -/
import proofs.«409998_j48696339202115_2_alg».proof.Proof.RTerms
import proofs.«409998_j48696339202115_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Broadcasts read at an index -/

section Layout
variable {α : Type}

/-- A vector laid out as a one-row matrix reads, at column `t` of its row, entry `t`. -/
theorem vecRow_apply {n : Nat} (h : (⟨1, ![n]⟩ : Shape).BroadcastsInDim ⟨2, ![1, n]⟩ ![1])
    (v : (⟨1, ![n]⟩ : Shape).Idx → α) (t : Fin n) :
    broadcastInDim ⟨2, ![1, n]⟩ ![1] h v (ix2 (0 : Fin 1) t) = v (ix1 t) := by
  refine broadcastInDim_apply ![1] h v (ix2 (0 : Fin 1) t) (ix1 t) ?_
  intro a
  match a with
  | ⟨0, _⟩ =>
    show t.val = if n = 1 then 0 else t.val
    split_ifs with hn
    · have := t.isLt; omega
    · rfl

/-- A vector laid along every row of a matrix reads, at (p, t), entry `t`. -/
theorem vecRows_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (p : Fin m) (t : Fin n) :
    broadcastInDim ⟨2, ![m, n]⟩ ![0, 1] h2 (broadcastInDim ⟨2, ![1, n]⟩ ![1] h1 v) (ix2 p t) = v (ix1 t) :=
  (broadcastInDim_oneRow_apply h2 _ p t).trans (vecRow_apply h1 v t)

/-- A one-entry vector spread over a whole matrix reads its entry everywhere. -/
theorem oneEntry_apply {m n : Nat} (h1 : (⟨1, ![1]⟩ : Shape).BroadcastsInDim ⟨2, ![1, 1]⟩ ![1])
    (h2 : (⟨2, ![1, 1]⟩ : Shape).BroadcastsInDim ⟨2, ![m, n]⟩ ![0, 1])
    (v : (⟨1, ![1]⟩ : Shape).Idx → α) (p : Fin m) (t : Fin n) :
    broadcastInDim ⟨2, ![m, n]⟩ ![0, 1] h2 (broadcastInDim ⟨2, ![1, 1]⟩ ![1] h1 v) (ix2 p t) = v (ix1 0) := by
  refine (broadcastInDim_apply ![0, 1] h2 _ (ix2 p t) (ix2 (0 : Fin 1) (0 : Fin 1)) ?_).trans (vecRow_apply h1 v 0)
  intro a
  match a with
  | ⟨0, _⟩ => show (0 : ℕ) = if (1 : ℕ) = 1 then 0 else _; simp
  | ⟨1, _⟩ => show (0 : ℕ) = if (1 : ℕ) = 1 then 0 else _; simp

/-- A vector laid out as a one-column matrix reads, at row `p`, entry `p`. -/
theorem vecCol_apply {m : Nat} (h : (⟨1, ![m]⟩ : Shape).BroadcastsInDim ⟨2, ![m, 1]⟩ ![0])
    (v : (⟨1, ![m]⟩ : Shape).Idx → α) (p : Fin m) :
    broadcastInDim ⟨2, ![m, 1]⟩ ![0] h v (ix2 p (0 : Fin 1)) = v (ix1 p) := by
  refine broadcastInDim_apply ![0] h v (ix2 p (0 : Fin 1)) (ix1 p) ?_
  intro a
  match a with
  | ⟨0, _⟩ =>
    show p.val = if m = 1 then 0 else p.val
    split_ifs with hm
    · have := p.isLt; omega
    · rfl

/-- A one-column matrix spread along the rows reads, at (p, q), the column's entry `p`. -/
theorem colSpread_apply {m n : Nat} (h : (⟨2, ![m, 1]⟩ : Shape).BroadcastsInDim ⟨2, ![m, n]⟩ ![0, 1])
    (y : (⟨2, ![m, 1]⟩ : Shape).Idx → α) (p : Fin m) (q : Fin n) :
    broadcastInDim ⟨2, ![m, n]⟩ ![0, 1] h y (ix2 p q) = y (ix2 p (0 : Fin 1)) := by
  refine broadcastInDim_apply ![0, 1] h y (ix2 p q) (ix2 p (0 : Fin 1)) ?_
  intro a
  match a with
  | ⟨0, _⟩ =>
    show p.val = if m = 1 then 0 else p.val
    split_ifs with hm
    · have := p.isLt; omega
    · rfl
  | ⟨1, _⟩ => show (0 : ℕ) = if (1 : ℕ) = 1 then 0 else _; simp

end Layout

/-! ## The stages read at an index -/

open Idealize.ShloMosaic.StackMember in
/-- A matrix product plus a bias row, at (p, q): the row's dot with column `q`, plus the bias's entry `q`. -/
theorem affine_apply {m k n : Nat} (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32)
    (p : Fin m) (q : Fin n) :
    addf (Host.dotGeneral (F := Ideal) D none x W)
        (broadcastInDim ⟨2, ![m, n]⟩ ![0, 1] h2 (broadcastInDim ⟨2, ![1, n]⟩ ![1] h1 b)) (ix2 p q)
      = (∑ l : Fin k, x (ix2 p l) * W (ix2 l q)) + b (ix1 q) := by
  subst hD
  rw [addf_apply, dotGeneral_plain_apply, vecRows_apply]

/-- The rectifier's whole-array spelling, at an index, is the rectifier of the entry. -/
theorem leaky_apply {T : Shape} (hz : S_.BroadcastsInDim T ![]) (h : FVec Ideal T .f32) (j : T.Idx) :
    select (cmpf .oge h (broadcastInDim T ![] hz (constant (F := Ideal) S_ .f32 0x00000000#32))) h
        (mulf (broadcastInDim T ![] hz (id (constant (F := Ideal) S_ .f32 0x3DCCCCCD#32))) h) j
      = Cert.GraphConv.leaky (h j) := by
  rw [select_apply, cmpf_apply, mulf_apply, broadcastInDim_scalar_apply, broadcastInDim_scalar_apply]
  rfl

/-- The two-layer perceptron's whole-array spelling, at (p, q), is the perceptron of row `p` at column `q`. -/
theorem mlp_apply {m din dh dout : Nat}
    (D1 : DotDims ⟨2, ![m, din]⟩ ⟨2, ![din, dh]⟩ ⟨2, ![m, dh]⟩) (hD1 : D1 = DotDims.plain m din dh)
    (D2 : DotDims ⟨2, ![m, dh]⟩ ⟨2, ![dh, dout]⟩ ⟨2, ![m, dout]⟩) (hD2 : D2 = DotDims.plain m dh dout)
    (g1 : (⟨1, ![dh]⟩ : Shape).BroadcastsInDim ⟨2, ![1, dh]⟩ ![1])
    (g2 : (⟨2, ![1, dh]⟩ : Shape).BroadcastsInDim ⟨2, ![m, dh]⟩ ![0, 1])
    (hz : S_.BroadcastsInDim ⟨2, ![m, dh]⟩ ![])
    (k1 : (⟨1, ![dout]⟩ : Shape).BroadcastsInDim ⟨2, ![1, dout]⟩ ![1])
    (k2 : (⟨2, ![1, dout]⟩ : Shape).BroadcastsInDim ⟨2, ![m, dout]⟩ ![0, 1])
    (x : FVec Ideal ⟨2, ![m, din]⟩ .f32) (W1 : FVec Ideal ⟨2, ![din, dh]⟩ .f32) (b1 : FVec Ideal ⟨1, ![dh]⟩ .f32)
    (W2 : FVec Ideal ⟨2, ![dh, dout]⟩ .f32) (b2 : FVec Ideal ⟨1, ![dout]⟩ .f32) (p : Fin m) (q : Fin dout) :
    addf (Host.dotGeneral (F := Ideal) D2 none
        (select
          (cmpf .oge
            (addf (Host.dotGeneral (F := Ideal) D1 none x W1)
              (broadcastInDim ⟨2, ![m, dh]⟩ ![0, 1] g2 (broadcastInDim ⟨2, ![1, dh]⟩ ![1] g1 b1)))
            (broadcastInDim ⟨2, ![m, dh]⟩ ![] hz (constant (F := Ideal) S_ .f32 0x00000000#32)))
          (addf (Host.dotGeneral (F := Ideal) D1 none x W1)
            (broadcastInDim ⟨2, ![m, dh]⟩ ![0, 1] g2 (broadcastInDim ⟨2, ![1, dh]⟩ ![1] g1 b1)))
          (mulf (broadcastInDim ⟨2, ![m, dh]⟩ ![] hz (id (constant (F := Ideal) S_ .f32 0x3DCCCCCD#32)))
            (addf (Host.dotGeneral (F := Ideal) D1 none x W1)
              (broadcastInDim ⟨2, ![m, dh]⟩ ![0, 1] g2 (broadcastInDim ⟨2, ![1, dh]⟩ ![1] g1 b1)))))
        W2)
      (broadcastInDim ⟨2, ![m, dout]⟩ ![0, 1] k2 (broadcastInDim ⟨2, ![1, dout]⟩ ![1] k1 b2)) (ix2 p q)
      = Cert.GraphConv.mlp (fun l => x (ix2 p l)) (fun l k => W1 (ix2 l k)) (fun k => b1 (ix1 k))
          (fun k j => W2 (ix2 k j)) (fun j => b2 (ix1 j)) q := by
  refine (affine_apply D2 hD2 k1 k2 _ W2 b2 p q).trans ?_
  unfold Cert.GraphConv.mlp
  refine congrArg (· + b2 (ix1 q)) (Finset.sum_congr rfl fun k _ => ?_)
  refine congrArg (· * W2 (ix2 k q)) ?_
  refine (leaky_apply hz _ (ix2 p k)).trans ?_
  exact congrArg Cert.GraphConv.leaky (affine_apply D1 hD1 g1 g2 x W1 b1 p k)

/-- A row sum from a zero initial value, at row `p`: the sum of the row's entries. -/
theorem rowSum_apply {m n : Nat} (h' : (⟨2, ![m, n]⟩ : Shape).ReducesTo [1] ⟨1, ![m]⟩) (hu : 0 < S_.numel)
    (o : FVec Ideal ⟨2, ![m, n]⟩ .f32) (p : Fin m) :
    Host.reduceAdd (F := Ideal) o (constant (F := Ideal) S_ .f32 0x00000000#32) h' hu (ix1 p) = ∑ a : Fin n, o (ix2 p a) := by
  have h : (⟨2, ![m, n]⟩ : Shape).Reduces [1] ⟨1, ![m]⟩ := ⟨h'.1, Nat.one_pos, h'.2⟩
  show Ideal.hostReduceAdd h' o (Ideal.ofBits .f32 0x00000000#32) (ix1 p) = _
  rw [Ideal.hostReduceAdd_single h' h, Ideal.ofBits_zero_f32, zero_add]
  refine Finset.sum_congr rfl fun a _ => congrArg o (funext fun b => Fin.ext ?_)
  match b with
  | ⟨0, _⟩ => rfl
  | ⟨1, _⟩ => rfl

/-- The mean column, at row `p`: the row's sum over the width. -/
theorem refMean_apply (o : FVec Ideal S100000x64 .f32) (p : Fin 100000) :
    refMean (F := Ideal) o (ix2 p (0 : Fin 1)) = Ideal.div (∑ a : Fin 64, o (ix2 p a)) Cert.GraphConv.width := by
  unfold refMean
  rw [hostDivf_apply, vecCol_apply, rowSum_apply, broadcastInDim_scalar_apply]
  rfl

/-- The normalisation's whole-array spelling, at (p, q), is the normalised row `p` at column `q`. -/
theorem refNorm_apply (o : FVec Ideal S100000x64 .f32) (γ β : FVec Ideal S64 .f32) (p : Fin 100000) (q : Fin 64) :
    refNorm (F := Ideal) o γ β (ix2 p q)
      = Cert.GraphConv.normRow (fun a => o (ix2 p a)) (fun a => γ (ix1 a)) (fun a => β (ix1 a)) q := by
  have hμ : ∀ a : Fin 64,
      broadcastInDim S100000x64 ![0, 1] bcast_S100000x1_S100000x64_0_1 (refMean (F := Ideal) o) (ix2 p a)
        = Ideal.div (∑ a : Fin 64, o (ix2 p a)) Cert.GraphConv.width := fun a =>
    (colSpread_apply _ _ p a).trans (refMean_apply o p)
  have hc : ∀ a : Fin 64,
      subf o (broadcastInDim S100000x64 ![0, 1] bcast_S100000x1_S100000x64_0_1 (refMean (F := Ideal) o)) (ix2 p a)
        = o (ix2 p a) - Ideal.div (∑ a : Fin 64, o (ix2 p a)) Cert.GraphConv.width := fun a => by
    rw [subf_apply, hμ a]
  unfold refNorm Cert.GraphConv.normRow
  rw [addf_apply, mulf_apply, mulf_apply, hc q, vecRows_apply, vecRows_apply, colSpread_apply]
  refine congrArg (fun t => (o (ix2 p q) - Ideal.div (∑ a : Fin 64, o (ix2 p a)) Cert.GraphConv.width) * t * γ (ix1 q) + β (ix1 q)) ?_
  show Ideal.rsqrt _ = _
  refine congrArg Ideal.rsqrt ?_
  rw [addf_apply, hostDivf_apply, vecCol_apply, rowSum_apply, broadcastInDim_scalar_apply, broadcastInDim_scalar_apply]
  refine congrArg₂ (· + ·) (congrArg (Ideal.div · Cert.GraphConv.width) (Finset.sum_congr rfl fun a _ => ?_)) rfl
  rw [mulf_apply, hc a]

/-- The reference's node stage is the perceptron of every row. -/
theorem refNode_eq (x : FVec Ideal S100000x64 .f32) (W1 : FVec Ideal S64x128 .f32) (b1 : FVec Ideal S128 .f32)
    (W2 : FVec Ideal S128x64 .f32) (b2 : FVec Ideal S64 .f32) :
    refNode (F := Ideal) x W1 b1 W2 b2
      = Cert.GraphConv.mlpRows (n := 100000) (din := 64) (dh := 128) (dout := 64) x W1 b1 W2 b2 := by
  funext i
  obtain ⟨p, q, rfl⟩ : ∃ (p : Fin 100000) (q : Fin 64), i = ix2 p q := ⟨i 0, i 1, eq_ix2 i⟩
  exact mlp_apply dot_S100000x64_S64x128_S100000x128_1_0_0_1_n_n rfl dot_S100000x128_S128x64_S100000x64_1_0_0_1_n_n rfl
    bcast_S128_S1x128_1 bcast_S1x128_S100000x128_0_1 bcast_S_S100000x128 bcast_S64_S1x64_1 bcast_S1x64_S100000x64_0_1
    x W1 b1 W2 b2 p q

/-- The edge perceptron's whole-array spelling, at (p, q), is the perceptron of edge row `p` at column `q`. -/
theorem refEdge_apply (ea : FVec Ideal S1000000x32 .f32) (W1 : FVec Ideal S32x64 .f32)
    (b1 : FVec Ideal S64 .f32) (W2 : FVec Ideal S64x64 .f32) (b2 : FVec Ideal S64 .f32) (p : Fin 1000000) (q : Fin 64) :
    refEdge (F := Ideal) ea W1 b1 W2 b2 (ix2 p q)
      = Cert.GraphConv.mlpRows (n := 1000000) (din := 32) (dh := 64) (dout := 64) ea W1 b1 W2 b2 (ix2 p q) :=
  mlp_apply dot_S1000000x32_S32x64_S1000000x64_1_0_0_1_n_n rfl dot_S1000000x64_S64x64_S1000000x64_1_0_0_1_n_n rfl
    bcast_S64_S1x64_1 bcast_S1x64_S1000000x64_0_1 bcast_S_S1000000x64 bcast_S64_S1x64_1 bcast_S1x64_S1000000x64_0_1
    ea W1 b1 W2 b2 p q

/-- The reference's message stage is the message formula of every edge row. -/
theorem refMsgs_eq (xg : FVec Ideal S1000000x64 .f32) (ea : FVec Ideal S1000000x32 .f32) (W1 : FVec Ideal S32x64 .f32)
    (b1 : FVec Ideal S64 .f32) (W2 : FVec Ideal S64x64 .f32) (b2 : FVec Ideal S64 .f32) (dp : FVec Ideal S1 .f32) :
    refMsgs (F := Ideal) xg ea W1 b1 W2 b2 dp
      = Cert.GraphConv.edgeRows (n := 1000000) (din := 32) (dh := 64) (dout := 64) ea xg W1 b1 W2 b2 dp := by
  funext i
  obtain ⟨p, q, rfl⟩ : ∃ (p : Fin 1000000) (q : Fin 64), i = ix2 p q := ⟨i 0, i 1, eq_ix2 i⟩
  unfold refMsgs Cert.GraphConv.edgeRows
  rw [mulf_apply, mulf_apply, oneEntry_apply, refEdge_apply]

/-- The reference's residual and normalisation stages are the normalised-row formula of every row. -/
theorem refNorm_eq (x agg : FVec Ideal S100000x64 .f32) (w : FVec Ideal S1 .f32) (γ β : FVec Ideal S64 .f32) :
    refNorm (F := Ideal) (refResid x agg w) γ β
      = Cert.GraphConv.normRows (n := 100000) (d := 64) x agg w γ β := by
  funext i
  obtain ⟨p, q, rfl⟩ : ∃ (p : Fin 100000) (q : Fin 64), i = ix2 p q := ⟨i 0, i 1, eq_ix2 i⟩
  have hres : ∀ a : Fin 64, refResid (F := Ideal) x agg w (ix2 p a) = x (ix2 p a) + agg (ix2 p a) * w (ix1 0) := fun a => by
    unfold refResid
    rw [addf_apply, mulf_apply, oneEntry_apply]
  refine (refNorm_apply (refResid x agg w) γ β p q).trans ?_
  exact congrArg (fun f => Cert.GraphConv.normRow f (fun a => γ (ix1 a)) (fun a => β (ix1 a)) q) (funext hres)

end Cert.ReferenceIdeal.RefValue

end
-- ==== Proof.RValue.lean ====
/- The reference's result as the composed row formulas: its five stages read index by index. -/
import proofs.«409998_j48696339202115_2_alg».proof.Proof.RefValue

noncomputable section

namespace Cert.ReferenceIdeal.RefValue

open Cert.ReferenceIdeal Cert.ReferenceIdeal.Gen Idealize.ShloMosaic

/-- The reference's result array: the normalised residual rows over the scatter-added messages of the gathered
    transformed node rows. -/
theorem refOut_eq (x : FVec Ideal S100000x64 .f32) (ea : FVec Ideal S1000000x32 .f32) (W1n : FVec Ideal S64x128 .f32) (b1n : FVec Ideal S128 .f32)
    (W2n : FVec Ideal S128x64 .f32) (b2n : FVec Ideal S64 .f32) (W1e : FVec Ideal S32x64 .f32) (b1e : FVec Ideal S64 .f32)
    (W2e : FVec Ideal S64x64 .f32) (b2e : FVec Ideal S64 .f32) (rw dp : FVec Ideal S1 .f32) (γ β : FVec Ideal S64 .f32)
    (ei : IVec S2x1000000 32) :
    refOut (F := Ideal) x ea W1n b1n W2n b2n W1e b1e W2e b2e rw dp γ β ei
      = Cert.GraphConv.normRows (n := 100000) (d := 64) x
          (scatterRows (F := Ideal) (dstOf ei)
            (Cert.GraphConv.edgeRows (n := 1000000) (din := 32) (dh := 64) (dout := 64) ea
              (gatherRows (F := Ideal) (Cert.GraphConv.mlpRows (n := 100000) (din := 64) (dh := 128) (dout := 64) x W1n b1n W2n b2n) (srcOf ei))
              W1e b1e W2e b2e dp))
          rw γ β := by
  unfold refOut
  rw [refNorm_eq, refMsgs_eq, refNode_eq]

end Cert.ReferenceIdeal.RefValue

end
-- ==== Proof.RefRun.lean ====
/- The reference program's run: its @main is a straight line of host operations (the two rectifier calls inlined at
   their call sites); every execution ends with the result array at the composed stages of the arguments and the
   arguments unchanged. -/
import proofs.«409998_j48696339202115_2_alg».proof.Proof.RTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 86 operations in order, each rectifier call's seven (the zero, its broadcast, the comparison, the slope's
    conversion, its broadcast, the product, the selection) listed at the call over the call's own buffers. -/
abbrev ops : List (HloOp τ sig (Elt F)) :=
  [ binary main_arg0 main_arg2 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    nullary main_cst (constant S_ .f32 0x3DCCCCCD#32),
    TRef.nullary main_call0.cst (constant S_ .f32 0x00000000#32),
    TRef.unary main_call0.cst main_call0.v0 (broadcastInDim S100000x128 ![] bcast_S_S100000x128),
    TRef.binary (.of main_v3) main_call0.v0 main_call0.v1 (cmpf .oge),
    TRef.unary (.of main_cst) main_call0.v2 id,
    TRef.unary main_call0.v2 main_call0.v3 (broadcastInDim S100000x128 ![] bcast_S_S100000x128),
    TRef.binary main_call0.v3 (.of main_v3) main_call0.v4 mulf,
    TRef.ternary main_call0.v1 (.of main_v3) main_call0.v4 main_call0.call0.v0 select,
    binary main_v4 main_arg4 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg5 main_v6 (broadcastInDim S1x64 ![1] bcast_S64_S1x64_1 : (⟨S64, .f32⟩ : BufTy).Contents (Elt F) → (⟨S1x64, .f32⟩ : BufTy).Contents (Elt F)),
    unary main_v6 main_v7 (broadcastInDim S100000x64 ![0, 1] bcast_S1x64_S100000x64_0_1 : (⟨S1x64, .f32⟩ : BufTy).Contents (Elt F) → (⟨S100000x64, .f32⟩ : BufTy).Contents (Elt F)),
    binary main_v5 main_v7 main_v8 (addf : (⟨S100000x64, .f32⟩ : BufTy).Contents (Elt F) → (⟨S100000x64, .f32⟩ : BufTy).Contents (Elt F) → (⟨S100000x64, .f32⟩ : BufTy).Contents (Elt F)),
    binary main_arg1 main_arg6 main_v9 ((fun l r => Host.dotGeneral dot_S1000000x32_S32x64_S1000000x64_1_0_0_1_n_n none l r) : (⟨S1000000x32, .f32⟩ : BufTy).Contents (Elt F) → (⟨S32x64, .f32⟩ : BufTy).Contents (Elt F) → (⟨S1000000x64, .f32⟩ : BufTy).Contents (Elt F)),
    unary main_arg7 main_v10 (broadcastInDim S1x64 ![1] bcast_S64_S1x64_1 : (⟨S64, .f32⟩ : BufTy).Contents (Elt F) → (⟨S1x64, .f32⟩ : BufTy).Contents (Elt F)),
    unary main_v10 main_v11 (broadcastInDim S1000000x64 ![0, 1] bcast_S1x64_S1000000x64_0_1 : (⟨S1x64, .f32⟩ : BufTy).Contents (Elt F) → (⟨S1000000x64, .f32⟩ : BufTy).Contents (Elt F)),
    binary main_v9 main_v11 main_v12 (addf : (⟨S1000000x64, .f32⟩ : BufTy).Contents (Elt F) → (⟨S1000000x64, .f32⟩ : BufTy).Contents (Elt F) → (⟨S1000000x64, .f32⟩ : BufTy).Contents (Elt F)),
    nullary main_cst_0 (constant S_ .f32 0x3DCCCCCD#32),
    TRef.nullary main_call1.cst (constant S_ .f32 0x00000000#32),
    TRef.unary main_call1.cst main_call1.v0 (broadcastInDim S1000000x64 ![] bcast_S_S1000000x64),
    TRef.binary (.of main_v12) main_call1.v0 main_call1.v1 (cmpf .oge),
    TRef.unary (.of main_cst_0) main_call1.v2 id,
    TRef.unary main_call1.v2 main_call1.v3 (broadcastInDim S1000000x64 ![] bcast_S_S1000000x64),
    TRef.binary main_call1.v3 (.of main_v12) main_call1.v4 mulf,
    TRef.ternary main_call1.v1 (.of main_v12) main_call1.v4 main_call1.call0.v0 select,
    binary main_v13 main_arg8 main_v14 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    unary main_arg9 main_v15 (broadcastInDim S1x64 ![1] bcast_S64_S1x64_1 : (⟨S64, .f32⟩ : BufTy).Contents (Elt F) → (⟨S1x64, .f32⟩ : BufTy).Contents (Elt F)),
    unary main_v15 main_v16 (broadcastInDim S1000000x64 ![0, 1] bcast_S1x64_S1000000x64_0_1 : (⟨S1x64, .f32⟩ : BufTy).Contents (Elt F) → (⟨S1000000x64, .f32⟩ : BufTy).Contents (Elt F)),
    binary main_v14 main_v16 main_v17 (addf : (⟨S1000000x64, .f32⟩ : BufTy).Contents (Elt F) → (⟨S1000000x64, .f32⟩ : BufTy).Contents (Elt F) → (⟨S1000000x64, .f32⟩ : BufTy).Contents (Elt F)),
    unary main_arg14 main_v18 ((extractStridedSlice S1x1000000 ![0, 0] · slices_S2x1000000_S1x1000000_0_0) : (⟨S2x1000000, .i32⟩ : BufTy).Contents (Elt F) → (⟨S1x1000000, .i32⟩ : BufTy).Contents (Elt F)),
    reshape main_v18 main_v19 rfl shapeCasts_S1x1000000_S1000000,
    unary main_arg14 main_v20 ((extractStridedSlice S1x1000000 ![1, 0] · slices_S2x1000000_S1x1000000_1_0) : (⟨S2x1000000, .i32⟩ : BufTy).Contents (Elt F) → (⟨S1x1000000, .i32⟩ : BufTy).Contents (Elt F)),
    reshape main_v20 main_v21 rfl shapeCasts_S1x1000000_S1000000,
    nullary main_c (constantI S_ 32 0#32),
    unary main_c main_v22 (broadcastInDim S1000000 ![] bcast_S_S1000000 : (⟨S_, .i32⟩ : BufTy).Contents (Elt F) → (⟨S1000000, .i32⟩ : BufTy).Contents (Elt F)),
    binary main_v19 main_v22 main_v23 (cmpi .slt : (⟨S1000000, .i32⟩ : BufTy).Contents (Elt F) → (⟨S1000000, .i32⟩ : BufTy).Contents (Elt F) → (⟨S1000000, .i1⟩ : BufTy).Contents (Elt F)),
    nullary main_c_1 (constantI S_ 32 100000#32),
    unary main_c_1 main_v24 (broadcastInDim S1000000 ![] bcast_S_S1000000 : (⟨S_, .i32⟩ : BufTy).Contents (Elt F) → (⟨S1000000, .i32⟩ : BufTy).Contents (Elt F)),
    binary main_v19 main_v24 main_v25 (addi : (⟨S1000000, .i32⟩ : BufTy).Contents (Elt F) → (⟨S1000000, .i32⟩ : BufTy).Contents (Elt F) → (⟨S1000000, .i32⟩ : BufTy).Contents (Elt F)),
    ternary main_v23 main_v25 main_v19 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v26 main_v27 (broadcastInDim S1000000x1 ![0] bcast_S1000000_S1000000x1_0 : (⟨S1000000, .i32⟩ : BufTy).Contents (Elt F) → (⟨S1000000x1, .i32⟩ : BufTy).Contents (Elt F)),
    binary main_v8 main_v27 main_v28 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v28 main_v17 main_v29 (mulf : (⟨S1000000x64, .f32⟩ : BufTy).Contents (Elt F) → (⟨S1000000x64, .f32⟩ : BufTy).Contents (Elt F) → (⟨S1000000x64, .f32⟩ : BufTy).Contents (Elt F)),
    unary main_arg11 main_v30 (broadcastInDim S1x1 ![1] bcast_S1_S1x1_1 : (⟨S1, .f32⟩ : BufTy).Contents (Elt F) → (⟨S1x1, .f32⟩ : BufTy).Contents (Elt F)),
    unary main_v30 main_v31 (broadcastInDim S1000000x64 ![0, 1] bcast_S1x1_S1000000x64_0_1 : (⟨S1x1, .f32⟩ : BufTy).Contents (Elt F) → (⟨S1000000x64, .f32⟩ : BufTy).Contents (Elt F)),
    binary main_v29 main_v31 main_v32 (mulf : (⟨S1000000x64, .f32⟩ : BufTy).Contents (Elt F) → (⟨S1000000x64, .f32⟩ : BufTy).Contents (Elt F) → (⟨S1000000x64, .f32⟩ : BufTy).Contents (Elt F)),
    nullary main_cst_2 (constant S_ .f32 0x00000000#32),
    unary main_cst_2 main_v33 (broadcastInDim S100000x64 ![] bcast_S_S100000x64 : (⟨S_, .f32⟩ : BufTy).Contents (Elt F) → (⟨S100000x64, .f32⟩ : BufTy).Contents (Elt F)),
    unary main_v21 main_v34 (broadcastInDim S1000000x1 ![0] bcast_S1000000_S1000000x1_0 : (⟨S1000000, .i32⟩ : BufTy).Contents (Elt F) → (⟨S1000000x1, .i32⟩ : BufTy).Contents (Elt F)),
    ternary main_v33 main_v34 main_v32 main_v35 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    unary main_arg10 main_v36 (broadcastInDim S1x1 ![1] bcast_S1_S1x1_1 : (⟨S1, .f32⟩ : BufTy).Contents (Elt F) → (⟨S1x1, .f32⟩ : BufTy).Contents (Elt F)),
    unary main_v36 main_v37 (broadcastInDim S100000x64 ![0, 1] bcast_S1x1_S100000x64_0_1 : (⟨S1x1, .f32⟩ : BufTy).Contents (Elt F) → (⟨S100000x64, .f32⟩ : BufTy).Contents (Elt F)),
    binary main_v35 main_v37 main_v38 (mulf : (⟨S100000x64, .f32⟩ : BufTy).Contents (Elt F) → (⟨S100000x64, .f32⟩ : BufTy).Contents (Elt F) → (⟨S100000x64, .f32⟩ : BufTy).Contents (Elt F)),
    binary main_arg0 main_v38 main_v39 (addf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v39 main_cst_3 main_v40 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    nullary main_cst_4 (constant S_ .f32 0x42800000#32),
    unary main_cst_4 main_v42 (broadcastInDim S100000x1 ![] bcast_S_S100000x1 : (⟨S_, .f32⟩ : BufTy).Contents (Elt F) → (⟨S100000x1, .f32⟩ : BufTy).Contents (Elt F)),
    binary main_v41 main_v42 main_v43 (Host.divf : (⟨S100000x1, .f32⟩ : BufTy).Contents (Elt F) → (⟨S100000x1, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v39 main_v44 main_v45 (subf : (⟨S100000x64, .f32⟩ : BufTy).Contents (Elt F) → (⟨S100000x64, .f32⟩ : BufTy).Contents (Elt F) → (⟨S100000x64, .f32⟩ : BufTy).Contents (Elt F)),
    binary main_v45 main_v45 main_v46 (mulf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x00000000#32),
    binary main_v46 main_cst_5 main_v47 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    nullary main_cst_6 (constant S_ .f32 0x42800000#32),
    unary main_cst_6 main_v49 (broadcastInDim S100000x1 ![] bcast_S_S100000x1 : (⟨S_, .f32⟩ : BufTy).Contents (Elt F) → (⟨S100000x1, .f32⟩ : BufTy).Contents (Elt F)),
    binary main_v48 main_v49 main_v50 (Host.divf : (⟨S100000x1, .f32⟩ : BufTy).Contents (Elt F) → (⟨S100000x1, .f32⟩ : BufTy).Contents (Elt F) → (⟨S100000x1, .f32⟩ : BufTy).Contents (Elt F)),
    unary main_v43 main_v51 (broadcastInDim S100000x64 ![0, 1] bcast_S100000x1_S100000x64_0_1 : (⟨S100000x1, .f32⟩ : BufTy).Contents (Elt F) → (⟨S100000x64, .f32⟩ : BufTy).Contents (Elt F)),
    binary main_v39 main_v51 main_v52 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v53 (broadcastInDim S100000x1 ![] bcast_S_S100000x1 : (⟨S_, .f32⟩ : BufTy).Contents (Elt F) → (⟨S100000x1, .f32⟩ : BufTy).Contents (Elt F)),
    binary main_v50 main_v53 main_v54 (addf : (⟨S100000x1, .f32⟩ : BufTy).Contents (Elt F) → (⟨S100000x1, .f32⟩ : BufTy).Contents (Elt F) → (⟨S100000x1, .f32⟩ : BufTy).Contents (Elt F)),
    unary main_v54 main_v55 (Host.rsqrt : (⟨S100000x1, .f32⟩ : BufTy).Contents (Elt F) → (⟨S100000x1, .f32⟩ : BufTy).Contents (Elt F)),
    unary main_v55 main_v56 (broadcastInDim S100000x64 ![0, 1] bcast_S100000x1_S100000x64_0_1 : (⟨S100000x1, .f32⟩ : BufTy).Contents (Elt F) → (⟨S100000x64, .f32⟩ : BufTy).Contents (Elt F)),
    binary main_v52 main_v56 main_v57 (mulf : (⟨S100000x64, .f32⟩ : BufTy).Contents (Elt F) → (⟨S100000x64, .f32⟩ : BufTy).Contents (Elt F) → (⟨S100000x64, .f32⟩ : BufTy).Contents (Elt F)),
    unary main_arg12 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v57 main_v59 main_v60 (mulf : (⟨S100000x64, .f32⟩ : BufTy).Contents (Elt F) → (⟨S100000x64, .f32⟩ : BufTy).Contents (Elt F) → (⟨S100000x64, .f32⟩ : BufTy).Contents (Elt F)),
    unary main_arg13 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)) ]

set_option maxRecDepth 4096 in
set_option maxHeartbeats 4000000 in
/-- @main is that straight line: the two windows and the called bodies unfolded, sequencing reassociated. -/
theorem main_eq (c : Dev nD) : main (F := F) c = seq ops := by
  simp only [main, main_part0, main_part1, fn_leaky_relu.body, fn_where.body, fn_leaky_relu_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation determines its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

set_option maxRecDepth 8192 in
set_option maxHeartbeats 4000000 in
/-- The fold at the result buffer is the composed stages of the arguments: each operation's result read at its own
    buffer is its function of its operands' contents, at any other buffer what was there; the stages unfold to the
    same term. -/
theorem out_eq (V : Valuation τ sig (Elt F)) :
    after ops V (main_v63 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem arg13_eq (V : Valuation τ sig (Elt F)) :
    after ops V (main_arg13 : DevRef τ sig) = V (main_arg13 : DevRef τ sig) := by
  after_results_simp

theorem arg14_eq (V : Valuation τ sig (Elt F)) :
    after ops V (main_arg14 : DevRef τ sig) = V (main_arg14 : DevRef τ sig) := by
  after_results_simp

/-- From any memory with zero counters every weakly fair execution of the reference terminates with its result at
    `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v63).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _),
      (h c main_arg8).trans (arg8_eq _), (h c main_arg9).trans (arg9_eq _), (h c main_arg10).trans (arg10_eq _),
      (h c main_arg11).trans (arg11_eq _), (h c main_arg12).trans (arg12_eq _), (h c main_arg13).trans (arg13_eq _),
      (h c main_arg14).trans (arg14_eq _)⟩)
    (run_seq scopedRefs_eq scopedSems_eq defs main (fun _ => ops) main_eq (fun _ => ops_sub) m ρ
      (fun _ => List.forall_iff_forall_mem.1 ops_fresh))

end Cert.ReferenceIdeal.RefValue

end
-- ==== Proof.lean ====
/- The proof of `Cert.Claim`: the kernel's program — a node perceptron, a row gather, an edge perceptron fused with the
   message product, a scatter-add and a residual with row normalisation, the three dense stages as pallas_calls over blocks of
   5000 rows — computes, over the extended reals, the same array as the whole-array reference, when every source index of
   the edge list is a node's row number (the added evident-domain conjunct: outside it the reference's own row lookup
   indexes out of range, and the two programs' out-of-range conventions differ).

   The three frames: the two kernel programs' are the generated frame certificates; the reference's is its run with the
   result dropped. `preserves` is `True` (the idealization rewrote nothing). `algebraic`: the kernel program's run names
   its result array as the composed stages (`Cert.KernelIdeal.Value.run`: each region's array is the row formula of its
   entry arrays because a row of the formula depends on that row of its inputs only; the host stretches between the
   regions are the gather — whose fill never applies under the precondition — and the scatter-add), the reference's run
   names its result as the same row formulas read off its whole-array operations (`refOut_eq`), and the gather and the
   scatter-add are the same functions in both programs. -/
import proofs.«409998_j48696339202115_2_alg».proof.Defs
import proofs.«409998_j48696339202115_2_alg».proof.Proof.Gen.Kernel
import proofs.«409998_j48696339202115_2_alg».proof.Proof.Gen.Kernel.Skeleton
import proofs.«409998_j48696339202115_2_alg».proof.Proof.Gen.Kernel.Launch
import proofs.«409998_j48696339202115_2_alg».proof.Proof.Gen.Kernel.Points
import proofs.«409998_j48696339202115_2_alg».proof.Proof.Gen.Kernel.Frame
import proofs.«409998_j48696339202115_2_alg».proof.Proof.Gen.KernelIdeal
import proofs.«409998_j48696339202115_2_alg».proof.Proof.Gen.KernelIdeal.Skeleton
import proofs.«409998_j48696339202115_2_alg».proof.Proof.Gen.KernelIdeal.Launch
import proofs.«409998_j48696339202115_2_alg».proof.Proof.Gen.KernelIdeal.Points
import proofs.«409998_j48696339202115_2_alg».proof.Proof.Gen.KernelIdeal.Frame
import proofs.«409998_j48696339202115_2_alg».proof.Proof.Gen.ReferenceIdeal
import proofs.«409998_j48696339202115_2_alg».proof.Proof.Gen.Pre_finite_inputs
import proofs.«409998_j48696339202115_2_alg».proof.Proof.KValue
import proofs.«409998_j48696339202115_2_alg».proof.Proof.RValue
import proofs.«409998_j48696339202115_2_alg».proof.Proof.RefRun
import Idealize.ShloMosaic.Adequacy
import Idealize.ShloMosaic.Init

noncomputable section

namespace Cert.Proof

open Idealize.ShloMosaic Idealize.SL.Sem

/-- The two programs' results are one function of the argument arrays: the reference's stages are the row formulas, and
    its gather and scatter-add are the kernel program's. -/
theorem result_eq (x : FVec Ideal Cert.KernelIdeal.S100000x64 .f32) (ea : FVec Ideal Cert.KernelIdeal.S1000000x32 .f32)
    (W1n : FVec Ideal Cert.KernelIdeal.S64x128 .f32) (b1n : FVec Ideal Cert.KernelIdeal.S128 .f32)
    (W2n : FVec Ideal Cert.KernelIdeal.S128x64 .f32) (b2n : FVec Ideal Cert.KernelIdeal.S64 .f32)
    (W1e : FVec Ideal Cert.KernelIdeal.S32x64 .f32) (b1e : FVec Ideal Cert.KernelIdeal.S64 .f32)
    (W2e : FVec Ideal Cert.KernelIdeal.S64x64 .f32) (b2e : FVec Ideal Cert.KernelIdeal.S64 .f32)
    (rw dp : FVec Ideal Cert.KernelIdeal.S1 .f32) (γ β : FVec Ideal Cert.KernelIdeal.S64 .f32)
    (ei : IVec Cert.KernelIdeal.S2x1000000 32) :
    Cert.ReferenceIdeal.RefValue.refOut (F := Ideal) x ea W1n b1n W2n b2n W1e b1e W2e b2e rw dp γ β ei
      = Cert.KernelIdeal.Value.kernelOut x ea W1n b1n W2n b2n W1e b1e W2e b2e rw dp γ β ei := by
  rw [Cert.ReferenceIdeal.RefValue.refOut_eq]
  rfl

theorem frame_ri : Cert.frame_ReferenceIdeal := fun m ρ _ =>
  (θ_run Cert.ReferenceIdeal.defs _ _).mono (fun _ h c => (h c).2) (Cert.ReferenceIdeal.RefValue.run (F := Ideal) m ρ)

theorem algebraic : Cert.algebraic_KernelIdeal_ReferenceIdeal := by
  intro m ρ m' ρ' hpre hagree
  refine ⟨_, Cert.KernelIdeal.Value.run m ρ (fun c => Cert.KernelIdeal.Value.srcInRange_of_pre m hpre c), ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact result_eq _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
